-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S1600000x4 : Shape := ⟨2, ![1600000, 4]⟩
abbrev S100x64 : Shape := ⟨2, ![100, 64]⟩
abbrev S64x68 : Shape := ⟨2, ![64, 68]⟩
abbrev S64 : Shape := ⟨1, ![64]⟩
abbrev S64x64 : Shape := ⟨2, ![64, 64]⟩
abbrev S_ : Shape := ⟨0, ![]⟩
abbrev S1x1600000 : Shape := ⟨2, ![1, 1600000]⟩
abbrev S1600000 : Shape := ⟨1, ![1600000]⟩

class Facts : Prop where
  bcast_S_S1600000x4 : S_.BroadcastsInDim S1600000x4 (![] : Fin 0 → Fin S1600000x4.rank)
  reducesTo_S1600000x4_S_d0_1 : S1600000x4.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S64x68 : S_.BroadcastsInDim S64x68 (![] : Fin 0 → Fin S64x68.rank)
  reducesTo_S64x68_S_d0_1 : S64x68.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S100000 : S_.BroadcastsInDim S100000 (![] : Fin 0 → Fin S100000.rank)
  reducesTo_S100000_S_d0 : S100000.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg0 : IVec S100000 32) (main_arg1 : IVec S2x1600000 32) (main_v48 : IVec S_ 1) (main_v50 : IVec S100000 1) : IVec S_ 1 :=
  let main_c_19 : IVec S_ 32 := constantI S_ 32 100#32
  let main_v51 : IVec S100000 32 := broadcastInDim S100000 ![] bcast_S_S100000 main_c_19
  let main_v52 : IVec S100000 1 := cmpi .slt main_arg0 main_v51
  let main_v53 : IVec S100000 1 := andi main_v50 main_v52
  let main_c_20 : IVec S_ 1 := constantI S_ 1 1#1
  let main_v54 : IVec S_ 1 := (fun x v => Host.reduce IntOp.andi x v reducesTo_S100000_S_d0 h_S_) main_v53 main_c_20
  let main_v55 : IVec S_ 1 := andi main_v48 main_v54
  let main_v56 : IVec S1x1600000 32 := (extractStridedSlice S1x1600000 ![0, 0] · slices_S2x1600000_S1x1600000_0_0) main_arg1
  let main_v57 : IVec S1600000 32 := shapeCast S1600000 main_v56 shapeCasts_S1x1600000_S1600000
  let main_c_21 : IVec S_ 32 := constantI S_ 32 0#32
  let main_v58 : IVec S1600000 32 := broadcastInDim S1600000 ![] bcast_S_S1600000 main_c_21
  let main_v59 : IVec S1600000 1 := cmpi .sge main_v57 main_v58
  let main_v60 : IVec S1x1600000 32 := (extractStridedSlice S1x1600000 ![0, 0] · slices_S2x1600000_S1x1600000_0_0) main_arg1
  let main_v61 : IVec S1600000 32 := shapeCast S1600000 main_v60 shapeCasts_S1x1600000_S1600000
  let main_c_22 : IVec S_ 32 := constantI S_ 32 100000#32
  let main_v62 : IVec S1600000 32 := broadcastInDim S1600000 ![] bcast_S_S1600000 main_c_22
  let main_v63 : IVec S1600000 1 := cmpi .slt main_v61 main_v62
  let main_v64 : IVec S1600000 1 := andi main_v59 main_v63
  let main_c_23 : IVec S_ 1 := constantI S_ 1 1#1
  let main_v65 : IVec S_ 1 := (fun x v => Host.reduce IntOp.andi x v reducesTo_S1600000_S_d0 h_S_) main_v64 main_c_23
  let main_v66 : IVec S_ 1 := andi main_v55 main_v65
  main_v66

def fn_part2 {F : FTy → Type} [FloatOps F] (main_arg0 : IVec S100000 32) (main_arg1 : IVec S2x1600000 32) (main_arg9 : FVec F S64 .f32) (main_arg10 : FVec F S64x64 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S100000 32 := broadcastInDim S100000 ![] bcast_S_S100000 main_c_18
  let main_v50 : IVec S100000 1 := cmpi .sge main_arg0 main_v49
  fn_part3 (F := F) main_arg0 main_arg1 main_v48 main_v50

def fn_part1 {F : FTy → Type} [FloatOps F] (main_arg0 : IVec S100000 32) (main_arg1 : IVec S2x1600000 32) (main_arg6 : FVec F S64x64 .f32) (main_arg7 : FVec F S64 .f32) (main_arg8 : FVec F S64x68 .f32) (main_arg9 : FVec F S64 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x68 .f32 := Host.absf main_arg8
  let main_cst_10 : FVec F S_ .f32 := constant S_ .f32 0x7F800000#32
  let main_v30 : FVec F S64x68 .f32 := broadcastInDim S64x68 ![] bcast_S_S64x68 main_cst_10
  let main_v31 : IVec S64x68 1 := cmpf .olt main_v29 main_v30
  let main_c_11 : IVec S_ 1 := constantI S_ 1 1#1
  let main_v32 : IVec S_ 1 := (fun x v => Host.reduce IntOp.andi x v reducesTo_S64x68_S_d0_1 h_S_) main_v31 main_c_11
  let main_v33 : IVec S_ 1 := andi main_v28 main_v32
  fn_part2 (F := F) main_arg0 main_arg1 main_arg9 main_arg10 main_arg11 main_v33

def fn {F : FTy → Type} [FloatOps F] (main_arg0 : IVec S100000 32) (main_arg1 : IVec S2x1600000 32) (main_arg2 : FVec F S1600000x4 .f32) (main_arg3 : FVec F S100x64 .f32) (main_arg4 : FVec F S64x68 .f32) (main_arg5 : FVec F S64 .f32) (main_arg6 : FVec F S64x64 .f32) (main_arg7 : FVec F S64 .f32) (main_arg8 : FVec F S64x68 .f32) (main_arg9 : FVec F S64 .f32) (main_arg10 : FVec F S64x64 .f32) (main_arg11 : FVec F S64 .f32) : IVec S_ 1 :=
  let main_v0 : FVec F S1600000x4 .f32 := Host.absf main_arg2
  let main_cst : FVec F S_ .f32 := constant S_ .f32 0x7F800000#32
  let main_v1 : FVec F S1600000x4 .f32 := broadcastInDim S1600000x4 ![] bcast_S_S1600000x4 main_cst
  let main_v2 : IVec S1600000x4 1 := cmpf .olt main_v0 main_v1
  let main_c : IVec S_ 1 := constantI S_ 1 1#1
  let main_v3 : IVec S_ 1 := (fun x v => Host.reduce IntOp.andi x v reducesTo_S1600000x4_S_d0_1 h_S_) main_v2 main_c
  let main_v4 : FVec F S100x64 .f32 := Host.absf main_arg3
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_v9 : FVec F S64x68 .f32 := Host.absf main_arg4
  let main_cst_2 : FVec F S_ .f32 := constant S_ .f32 0x7F800000#32
  let main_v10 : FVec F S64x68 .f32 := broadcastInDim S64x68 ![] bcast_S_S64x68 main_cst_2
  let main_v11 : IVec S64x68 1 := cmpf .olt main_v9 main_v10
  let main_c_3 : IVec S_ 1 := constantI S_ 1 1#1
  let main_v12 : IVec S_ 1 := (fun x v => Host.reduce IntOp.andi x v reducesTo_S64x68_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg1 main_arg6 main_arg7 main_arg8 main_arg9 main_arg10 main_arg11 main_v13 main_v16
-- ==== Kernel.lean ====
abbrev S100000 : Shape := ⟨1, ![100000]⟩
abbrev S2x1600000 : Shape := ⟨2, ![2, 1600000]⟩
abbrev S1600000x4 : Shape := ⟨2, ![1600000, 4]⟩
abbrev S100x64 : Shape := ⟨2, ![100, 64]⟩
abbrev S64x68 : Shape := ⟨2, ![64, 68]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x64 : Shape := ⟨2, ![100000, 64]⟩
abbrev S1600000x1 : Shape := ⟨2, ![1600000, 1]⟩
abbrev S1600000x64 : Shape := ⟨2, ![1600000, 64]⟩
abbrev S64x4 : Shape := ⟨2, ![64, 4]⟩
abbrev S4x64 : Shape := ⟨2, ![4, 64]⟩
abbrev S1x64 : Shape := ⟨2, ![1, 64]⟩
abbrev S8000x64 : Shape := ⟨2, ![8000, 64]⟩
abbrev S8000x4 : Shape := ⟨2, ![8000, 4]⟩
abbrev S5000x64 : Shape := ⟨2, ![5000, 64]⟩

abbrev nBuf : Space → Nat
  | .hbm => 116
  | .vmem => 34
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S1600000x4, .f32⟩
  | .hbm, ⟨3, _⟩ => ⟨S100x64, .f32⟩
  | .hbm, ⟨4, _⟩ => ⟨S64x68, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x68, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S100000, .i32⟩
  | .hbm, ⟨18, _⟩ => ⟨S100000, .i1⟩
  | .hbm, ⟨19, _⟩ => ⟨S_, .i32⟩
  | .hbm, ⟨20, _⟩ => ⟨S100000, .i32⟩
  | .hbm, ⟨21, _⟩ => ⟨S100000, .i32⟩
  | .hbm, ⟨22, _⟩ => ⟨S100000, .i32⟩
  | .hbm, ⟨23, _⟩ => ⟨S100000x1, .i32⟩
  | .hbm, ⟨24, _⟩ => ⟨S1, .i32⟩
  | .hbm, ⟨25, _⟩ => ⟨S_, .i32⟩
  | .hbm, ⟨26, _⟩ => ⟨S100000x1, .i32⟩
  | .hbm, ⟨27, _⟩ => ⟨S100000x1, .i1⟩
  | .hbm, ⟨28, _⟩ => ⟨S1x1, .i32⟩
  | .hbm, ⟨29, _⟩ => ⟨S100000x1, .i32⟩
  | .hbm, ⟨30, _⟩ => ⟨S100000x1, .i1⟩
  | .hbm, ⟨31, _⟩ => ⟨S100000x1, .i1⟩
  | .hbm, ⟨32, _⟩ => ⟨S_, .i1⟩
  | .hbm, ⟨33, _⟩ => ⟨S100000, .i1⟩
  | .hbm, ⟨34, _⟩ => ⟨S100000x64, .f32⟩
  | .hbm, ⟨35, _⟩ => ⟨S100000x64, .i1⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1, .i32⟩
  | .hbm, ⟨48, _⟩ => ⟨S_, .i32⟩
  | .hbm, ⟨49, _⟩ => ⟨S1600000x1, .i32⟩
  | .hbm, ⟨50, _⟩ => ⟨S1600000x1, .i1⟩
  | .hbm, ⟨51, _⟩ => ⟨S1x1, .i32⟩
  | .hbm, ⟨52, _⟩ => ⟨S1600000x1, .i32⟩
  | .hbm, ⟨53, _⟩ => ⟨S1600000x1, .i1⟩
  | .hbm, ⟨54, _⟩ => ⟨S1600000x1, .i1⟩
  | .hbm, ⟨55, _⟩ => ⟨S_, .i1⟩
  | .hbm, ⟨56, _⟩ => ⟨S1600000, .i1⟩
  | .hbm, ⟨57, _⟩ => ⟨S1600000x64, .f32⟩
  | .hbm, ⟨58, _⟩ => ⟨S1600000x64, .i1⟩
  | .hbm, ⟨59, _⟩ => ⟨S_, .f32⟩
  | .hbm, ⟨60, _⟩ => ⟨S1600000x64, .f32⟩
  | .hbm, ⟨61, _⟩ => ⟨S1600000x64, .f32⟩
  | .hbm, ⟨62, _⟩ => ⟨S64x64, .f32⟩
  | .hbm, ⟨63, _⟩ => ⟨S64x64, .f32⟩
  | .hbm, ⟨64, _⟩ => ⟨S64x4, .f32⟩
  | .hbm, ⟨65, _⟩ => ⟨S4x64, .f32⟩
  | .hbm, ⟨66, _⟩ => ⟨S1x64, .f32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S64x64, .f32⟩
  | .hbm, ⟨73, _⟩ => ⟨S1x64, .f32⟩
  | .hbm, ⟨74, _⟩ => ⟨S100000x64, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1, .i32⟩
  | .hbm, ⟨84, _⟩ => ⟨S_, .i32⟩
  | .hbm, ⟨85, _⟩ => ⟨S1600000x1, .i32⟩
  | .hbm, ⟨86, _⟩ => ⟨S1600000x1, .i1⟩
  | .hbm, ⟨87, _⟩ => ⟨S1x1, .i32⟩
  | .hbm, ⟨88, _⟩ => ⟨S1600000x1, .i32⟩
  | .hbm, ⟨89, _⟩ => ⟨S1600000x1, .i1⟩
  | .hbm, ⟨90, _⟩ => ⟨S1600000x1, .i1⟩
  | .hbm, ⟨91, _⟩ => ⟨S_, .i1⟩
  | .hbm, ⟨92, _⟩ => ⟨S1600000, .i1⟩
  | .hbm, ⟨93, _⟩ => ⟨S1600000x64, .f32⟩
  | .hbm, ⟨94, _⟩ => ⟨S1600000x64, .i1⟩
  | .hbm, ⟨95, _⟩ => ⟨S_, .f32⟩
  | .hbm, ⟨96, _⟩ => ⟨S1600000x64, .f32⟩
  | .hbm, ⟨97, _⟩ => ⟨S1600000x64, .f32⟩
  | .hbm, ⟨98, _⟩ => ⟨S64x64, .f32⟩
  | .hbm, ⟨99, _⟩ => ⟨S64x64, .f32⟩
  | .hbm, ⟨100, _⟩ => ⟨S64x4, .f32⟩
  | .hbm, ⟨101, _⟩ => ⟨S4x64, .f32⟩
  | .hbm, ⟨102, _⟩ => ⟨S1x64, .f32⟩
  | .hbm, ⟨103, _⟩ => ⟨S1600000x64, .f32⟩
  | .hbm, ⟨104, _⟩ => ⟨S_, .f32⟩
  | .hbm, ⟨105, _⟩ => ⟨S100000x64, .f32⟩
  | .hbm, ⟨106, _⟩ => ⟨S1600000x1, .i32⟩
  | .hbm, ⟨107, _⟩ => ⟨S100000x64, .f32⟩
  | .hbm, ⟨108, _⟩ => ⟨S64x64, .f32⟩
  | .hbm, ⟨109, _⟩ => ⟨S1x64, .f32⟩
  | .hbm, ⟨110, _⟩ => ⟨S100000x64, .f32⟩
  | .hbm, ⟨111, _⟩ => ⟨S_, .f32⟩
  | .hbm, ⟨112, _⟩ => ⟨S64, .f32⟩
  | .hbm, ⟨113, _⟩ => ⟨S_, .f32⟩
  | .hbm, ⟨114, _⟩ => ⟨S64, .f32⟩
  | .hbm, ⟨115, _⟩ => ⟨S64, .f32⟩
  | .local _ .vmem, ⟨0, _⟩ => ⟨S8000x64, .f32⟩
  | .local _ .vmem, ⟨1, _⟩ => ⟨S8000x64, .f32⟩
  | .local _ .vmem, ⟨2, _⟩ => ⟨S8000x4, .f32⟩
  | .local _ .vmem, ⟨3, _⟩ => ⟨S8000x4, .f32⟩
  | .local _ .vmem, ⟨4, _⟩ => ⟨S64x64, .f32⟩
  | .local _ .vmem, ⟨5, _⟩ => ⟨S4x64, .f32⟩
  | .local _ .vmem, ⟨6, _⟩ => ⟨S1x64, .f32⟩
  | .local _ .vmem, ⟨7, _⟩ => ⟨S8000x64, .f32⟩
  | .local _ .vmem, ⟨8, _⟩ => ⟨S8000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S8000x64, .f32⟩
  | .local _ .vmem, ⟨18, _⟩ => ⟨S8000x64, .f32⟩
  | .local _ .vmem, ⟨19, _⟩ => ⟨S8000x4, .f32⟩
  | .local _ .vmem, ⟨20, _⟩ => ⟨S8000x4, .f32⟩
  | .local _ .vmem, ⟨21, _⟩ => ⟨S64x64, .f32⟩
  | .local _ .vmem, ⟨22, _⟩ => ⟨S4x64, .f32⟩
  | .local _ .vmem, ⟨23, _⟩ => ⟨S1x64, .f32⟩
  | .local _ .vmem, ⟨24, _⟩ => ⟨S8000x64, .f32⟩
  | .local _ .vmem, ⟨25, _⟩ => ⟨S8000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_cst : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v18 : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_cst_0 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_cst_1 : Ref sig .tc := ⟨.hbm, 111, rfl⟩
abbrev main_v31 : Ref sig .tc := ⟨.hbm, 112, rfl⟩
abbrev main_cst_2 : Ref sig .tc := ⟨.hbm, 113, rfl⟩
abbrev main_v32 : Ref sig .tc := ⟨.hbm, 114, rfl⟩
abbrev main_v33 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x64_0 : S100000.BroadcastsInDim S100000x64 (![0] : Fin 1 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S64x68_S64x64_0_0 : S64x68.Slices ![0, 0] S64x64
  transposes_S64x64_S64x64_1_0 : S64x64.Transposes [1, 0] S64x64
  slices_S64x68_S64x4_0_64 : S64x68.Slices ![0, 64] S64x4
  transposes_S64x4_S4x64_1_0 : S64x4.Transposes [1, 0] S4x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x4_S8000x4_0_0 : ∀ a, (![0, 0] : Fin 2 → Nat) a + S8000x4.size a ≤ S8000x4.size a
  h_S8000x4 : 0 < S8000x4.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  reducesTo_S100000x64_S64_d0 : S100000x64.ReducesTo [0] S64
  bcast_S_S64 : S_.BroadcastsInDim S64 (![] : Fin 0 → Fin S64.rank)
  gather_S100x64_S100000x1_S100000x64_1_0_n_n_0_1_164_wf : GatherDims.WF S100x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  dot_S8000x4_S4x64_S8000x64_1_0_0_1_n_n_wf : DotDims.WF S8000x4 S4x64 S8000x64 [1] [0] [0] [1] [] []
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x4.size a ≤ S1600000x4.size a
  hwx0_1 : ∀ i : grid0.Coords, EltTy.bits .f32 = 32 ∨ (Rect.block (s := S1600000x4) S8000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64.size a ≤ S4x64.size a
  hwx0_3 : ∀ i : grid0.Coords, EltTy.bits .f32 = 32 ∨ (Rect.block (s := S4x64) S4x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1600000x64.size a
  hwx0_5 : ∀ i : grid0.Coords, EltTy.bits .f32 = 32 ∨ (Rect.block (s := S1600000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x4.size a ≤ S1600000x4.size a
  hwx2_1 : ∀ i : grid2.Coords, EltTy.bits .f32 = 32 ∨ (Rect.block (s := S1600000x4) S8000x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x64.size a ≤ S4x64.size a
  hwx2_3 : ∀ i : grid2.Coords, EltTy.bits .f32 = 32 ∨ (Rect.block (s := S4x64) S4x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x64.size a ≤ S1600000x64.size a
  hwx2_5 : ∀ i : grid2.Coords, EltTy.bits .f32 = 32 ∨ (Rect.block (s := S1600000x64) S8000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def gather_S100x64_S100000x1_S100000x64_1_0_n_n_0_1_164 : GatherDims S100x64 S100000x1 S100000x64 where
  offsetDims := [1]
  collapsedSliceDims := [0]
  operandBatchingDims := []
  startIndicesBatchingDims := []
  startIndexMap := [0]
  indexVectorDim := 1
  sliceSizes := ![1, 64]
  wf := gather_S100x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x4_S4x64_S8000x64_1_0_0_1_n_n : DotDims S8000x4 S4x64 S8000x64 where
  lhsContracting := [1]
  rhsContracting := [0]
  lhsNonContracting := [0]
  rhsNonContracting := [1]
  lhsBatch := []
  rhsBatch := []
  wf := dot_S8000x4_S4x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v5) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v18) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S8000x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S4x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24) S8000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v17) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v30) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000 : Shape := ⟨1, ![100000]⟩
abbrev S2x1600000 : Shape := ⟨2, ![2, 1600000]⟩
abbrev S1600000x4 : Shape := ⟨2, ![1600000, 4]⟩
abbrev S100x64 : Shape := ⟨2, ![100, 64]⟩
abbrev S64x68 : Shape := ⟨2, ![64, 68]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x64 : Shape := ⟨2, ![100000, 64]⟩
abbrev S1600000x1 : Shape := ⟨2, ![1600000, 1]⟩
abbrev S1600000x64 : Shape := ⟨2, ![1600000, 64]⟩
abbrev S1600000x68 : Shape := ⟨2, ![1600000, 68]⟩
abbrev S68x64 : Shape := ⟨2, ![68, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S1600000x4, .f32⟩
  | .hbm, ⟨3, _⟩ => ⟨S100x64, .f32⟩
  | .hbm, ⟨4, _⟩ => ⟨S64x68, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x68, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S100000, .i32⟩
  | .hbm, ⟨18, _⟩ => ⟨S100000, .i1⟩
  | .hbm, ⟨19, _⟩ => ⟨S_, .i32⟩
  | .hbm, ⟨20, _⟩ => ⟨S100000, .i32⟩
  | .hbm, ⟨21, _⟩ => ⟨S100000, .i32⟩
  | .hbm, ⟨22, _⟩ => ⟨S100000, .i32⟩
  | .hbm, ⟨23, _⟩ => ⟨S100000x1, .i32⟩
  | .hbm, ⟨24, _⟩ => ⟨S100000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S1600000x68, .f32⟩
  | .hbm, ⟨35, _⟩ => ⟨S68x64, .f32⟩
  | .hbm, ⟨36, _⟩ => ⟨S1600000x64, .f32⟩
  | .hbm, ⟨37, _⟩ => ⟨S1x64, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x64, .f32⟩
  | .hbm, ⟨48, _⟩ => ⟨S64x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S1600000x68, .f32⟩
  | .hbm, ⟨66, _⟩ => ⟨S68x64, .f32⟩
  | .hbm, ⟨67, _⟩ => ⟨S1600000x64, .f32⟩
  | .hbm, ⟨68, _⟩ => ⟨S1x64, .f32⟩
  | .hbm, ⟨69, _⟩ => ⟨S1600000x64, .f32⟩
  | .hbm, ⟨70, _⟩ => ⟨S1600000x64, .f32⟩
  | .hbm, ⟨71, _⟩ => ⟨S_, .f32⟩
  | .hbm, ⟨72, _⟩ => ⟨S1600000x64, .f32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S100000x64, .f32⟩
  | .hbm, ⟨79, _⟩ => ⟨S64x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S64, .f32⟩
  | .hbm, ⟨89, _⟩ => ⟨S_, .f32⟩
  | .hbm, ⟨90, _⟩ => ⟨S64, .f32⟩
  | .hbm, ⟨91, _⟩ => ⟨S64, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_3 : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call2_cst : Ref sig .tc := ⟨.hbm, 71, rfl⟩
abbrev main_call2_v0 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call3_cst : Ref sig .tc := ⟨.hbm, 84, rfl⟩
abbrev main_call3_v0 : Ref sig .tc := ⟨.hbm, 85, rfl⟩
abbrev main_v58 : Ref sig .tc := ⟨.hbm, 86, rfl⟩
abbrev main_cst_6 : Ref sig .tc := ⟨.hbm, 87, rfl⟩
abbrev main_v59 : Ref sig .tc := ⟨.hbm, 88, rfl⟩
abbrev main_cst_7 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x4_S1600000x68_d1 : Shape.Concatenates [S1600000x64, S1600000x4] S1600000x68 1
  transposes_S64x68_S68x64_1_0 : S64x68.Transposes [1, 0] S68x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  transposes_S64x64_S64x64_1_0 : S64x64.Transposes [1, 0] S64x64
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  gather_S100x64_S100000x1_S100000x64_1_0_n_n_0_1_164_wf : GatherDims.WF S100x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  dot_S1600000x68_S68x64_S1600000x64_1_0_0_1_n_n_wf : DotDims.WF S1600000x68 S68x64 S1600000x64 [1] [0] [0] [1] [] []
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100x64_S100000x1_S100000x64_1_0_n_n_0_1_164 : GatherDims S100x64 S100000x1 S100000x64 where
  offsetDims := [1]
  collapsedSliceDims := [0]
  operandBatchingDims := []
  startIndicesBatchingDims := []
  startIndexMap := [0]
  indexVectorDim := 1
  sliceSizes := ![1, 64]
  wf := gather_S100x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x68_S68x64_S1600000x64_1_0_0_1_n_n : DotDims S1600000x68 S68x64 S1600000x64 where
  lhsContracting := [1]
  rhsContracting := [0]
  lhsNonContracting := [0]
  rhsNonContracting := [1]
  lhsBatch := []
  rhsBatch := []
  wf := dot_S1600000x68_S68x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  What the two programs compute, as functions of their argument arrays.

  A graph encoder: node features x₀ = emb[ids]; two rounds, each sending along every edge e the message
  relu(W · [x[src e] ; ea e] + b), summing at each node the messages of the edges that end there, and replacing x by
  relu(Wu · (x + agg) + bu); the result is the mean of the final features over the nodes.

  The kernel side gathers with a range test (an out-of-range row is filled, never read), multiplies the two column
  groups of W separately (W[:, :64] against x[src], W[:, 64:] against the edge attributes) in blocks of 8000 edges, and
  updates the nodes in blocks of 5000. The reference side gathers directly, concatenates [x[src] ; ea] and multiplies
  once. Both are written here with the operations of the printed programs, so that each program's result is its
  function by unfolding.
-/
import proofs.«401947_j16612933501305_1_alg».proof.KernelIdeal
import proofs.«401947_j16612933501305_1_alg».proof.ReferenceIdeal
import proofs.«401947_j16612933501305_1_alg».proof.Proof.Gen.KernelIdeal.Skeleton
import Idealize.ShloMosaic.Lib.ValueIdx

noncomputable section

namespace Cert.KernelIdeal.Spec

open Cert.KernelIdeal Idealize.ShloMosaic Idealize.ShloMosaic.ValueIdx
open Facts₀ Facts

variable {F : FTy → Type} [FloatOps F] [Facts]

/-! ## Indices: a negative index counts from the end; a row is read only where its index is in range -/

/-- The node-type indices with negative ones counted from the end of the 100-row table. -/
def wrapIds (ids : IVec S100000 32) : IVec S100000 32 :=
  select (cmpi .slt ids (broadcastInDim S100000 ![] bcast_S_S100000 (constantI S_ 32 0#32)))
    (addi ids (broadcastInDim S100000 ![] bcast_S_S100000 (constantI S_ 32 100#32))) ids

/-- The same as a column of start indices. -/
def idsCol (ids : IVec S100000 32) : IVec S100000x1 32 :=
  broadcastInDim S100000x1 ![0] bcast_S100000_S100000x1_0 (wrapIds ids)

/-- Per node: is its (wrapped) index one of the table's rows 0 … 99? -/
def idsOk (ids : IVec S100000 32) : IVec S100000 1 :=
  Host.reduce IntOp.andi
    (andi (cmpi .sge (idsCol ids) (broadcastInDim S100000x1 ![] bcast_S_S100000x1 (constantI S_ 32 0#32)))
      (cmpi .sle (idsCol ids) (broadcastInDim S100000x1 ![0, 1] bcast_S1x1_S100000x1_0_1
        (broadcastInDim S1x1 ![1] bcast_S1_S1x1_1 (constantI S1 32 99#32)))))
    (constantI S_ 1 1#1) reducesTo_S100000x1_S100000_d1 h_S_

/-- x₀ on the kernel side: row ids[n] of the table where that index is in range, a fill value elsewhere. -/
def takeEmb (emb : FVec F S100x64 .f32) (ids : IVec S100000 32) : FVec F S100000x64 .f32 :=
  select (broadcastInDim S100000x64 ![0] bcast_S100000_S100000x64_0 (idsOk ids))
    (Host.gather gather_S100x64_S100000x1_S100000x64_1_0_n_n_0_1_164 emb (idsCol ids))
    (broadcastInDim S100000x64 ![] bcast_S_S100000x64 (constant S_ .f32 0x7FC00000#32))

/-- The source node of every edge: row 0 of the edge list. -/
def srcOf (ei : IVec S2x1600000 32) : IVec S1600000 32 :=
  shapeCast S1600000 (extractStridedSlice S1x1600000 ![0, 0] ei slices_S2x1600000_S1x1600000_0_0) shapeCasts_S1x1600000_S1600000

/-- The target node of every edge: row 1 of the edge list. -/
def dstOf (ei : IVec S2x1600000 32) : IVec S1600000 32 :=
  shapeCast S1600000 (extractStridedSlice S1x1600000 ![1, 0] ei slices_S2x1600000_S1x1600000_1_0) shapeCasts_S1x1600000_S1600000

/-- The source indices with negative ones counted from the end of the 100000 nodes. -/
def wrapSrc (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

def srcCol (s : IVec S1600000 32) : IVec S1600000x1 32 :=
  broadcastInDim S1600000x1 ![0] bcast_S1600000_S1600000x1_0 (wrapSrc s)

/-- Per edge: is its (wrapped) source index one of the nodes 0 … 99999? -/
def srcOk (s : IVec S1600000 32) : IVec S1600000 1 :=
  Host.reduce IntOp.andi
    (andi (cmpi .sge (srcCol s) (broadcastInDim S1600000x1 ![] bcast_S_S1600000x1 (constantI S_ 32 0#32)))
      (cmpi .sle (srcCol s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- x[src] on the kernel side: the source node's features where the index is in range, a fill value elsewhere. -/
def takeRows (x : FVec F S100000x64 .f32) (s : IVec S1600000 32) : FVec F S1600000x64 .f32 :=
  select (broadcastInDim S1600000x64 ![0] bcast_S1600000_S1600000x64_0 (srcOk s))
    (Host.gather gather_S100000x64_S1600000x1_S1600000x64_1_0_n_n_0_1_164 x (srcCol s))
    (broadcastInDim S1600000x64 ![] bcast_S_S1600000x64 (constant S_ .f32 0x7FC00000#32))

/-! ## The two kernels as whole-array functions: each block of rows is the kernel body's value on that block -/

/-- Rows 8000 t … 8000 t + 7999 of an array of 1600000 rows. -/
def rows8000 {α : Type} {n : Nat} (A : (⟨2, ![1600000, n]⟩ : Shape).Idx → α) (t : Fin 200) : (⟨2, ![8000, n]⟩ : Shape).Idx → α :=
  fun j => A (ix2 ⟨t.val * 8000 + (j 0).val, by have h0 := idx2_lt0 j; have ht := t.isLt; omega⟩ (j 1))

/-- Rows 5000 t … 5000 t + 4999 of an array of 100000 rows. -/
def rows5000 {α : Type} {n : Nat} (A : (⟨2, ![100000, n]⟩ : Shape).Idx → α) (t : Fin 20) : (⟨2, ![5000, n]⟩ : Shape).Idx → α :=
  fun j => A (ix2 ⟨t.val * 5000 + (j 0).val, by have h0 := idx2_lt0 j; have ht := t.isLt; omega⟩ (j 1))

/-- The message kernel over all edges: edge e = 8000 t + p gets the body's value at row p of block t. -/
def edgeFn (xg : FVec F S1600000x64 .f32) (ea : FVec F S1600000x4 .f32) (wa : FVec F S64x64 .f32) (wb : FVec F S4x64 .f32)
    (b : FVec F S1x64 .f32) : FVec F S1600000x64 .f32 :=
  fun i => Gen.k0_pay1 (rows8000 xg ⟨(i 0).val / 8000, by have h := idx2_lt0 i; omega⟩)
    (rows8000 ea ⟨(i 0).val / 8000, by have h := idx2_lt0 i; omega⟩) wa wb b
    (ix2 ⟨(i 0).val % 8000, Nat.mod_lt _ (by decide)⟩ (i 1))

/-- The node-update kernel over all nodes: node n = 5000 t + p gets the body's value at row p of block t. -/
def nodeFn (x : FVec F S100000x64 .f32) (agg : FVec F S100000x64 .f32) (wu : FVec F S64x64 .f32) (bu : FVec F S1x64 .f32) :
    FVec F S100000x64 .f32 :=
  fun i => Gen.k1_pay1 (rows5000 x ⟨(i 0).val / 5000, by have h := idx2_lt0 i; omega⟩)
    (rows5000 agg ⟨(i 0).val / 5000, by have h := idx2_lt0 i; omega⟩) wu bu
    (ix2 ⟨(i 0).val % 5000, Nat.mod_lt _ (by decide)⟩ (i 1))

/-! ## A round, and the whole program -/

/-- W[:, :64] transposed: the weights that meet the source node's features. -/
def waT (W : FVec F S64x68 .f32) : FVec F S64x64 .f32 :=
  transpose S64x64 [1, 0] (extractStridedSlice S64x64 ![0, 0] W slices_S64x68_S64x64_0_0) transposes_S64x64_S64x64_1_0

/-- W[:, 64:] transposed: the weights that meet the edge attributes. -/
def wbT (W : FVec F S64x68 .f32) : FVec F S4x64 .f32 :=
  transpose S4x64 [1, 0] (extractStridedSlice S64x4 ![0, 64] W slices_S64x68_S64x4_0_64) transposes_S64x4_S4x64_1_0

/-- A bias vector as one row. -/
def row1 (b : FVec F S64 .f32) : FVec F S1x64 .f32 := shapeCast S1x64 b shapeCasts_S64_S1x64

/-- Per node, the sum of the messages of the edges that end there. -/
def aggOf (dst : IVec S1600000 32) (msg : FVec F S1600000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst) msg

def wuT (Wu : FVec F S64x64 .f32) : FVec F S64x64 .f32 := transpose S64x64 [1, 0] Wu transposes_S64x64_S64x64_1_0

/-- One round of message passing on the kernel side. -/
def round (x : FVec F S100000x64 .f32) (src dst : IVec S1600000 32) (ea : FVec F S1600000x4 .f32)
    (W : FVec F S64x68 .f32) (b : FVec F S64 .f32) (Wu : FVec F S64x64 .f32) (bu : FVec F S64 .f32) : FVec F S100000x64 .f32 :=
  nodeFn x (aggOf dst (edgeFn (takeRows x src) ea (waT W) (wbT W) (row1 b))) (wuT Wu) (row1 bu)

/-- The mean over the nodes. -/
def meanRows (x : FVec F S100000x64 .f32) : FVec F S64 .f32 :=
  Host.divf (Host.reduceAdd x (constant S_ .f32 0x00000000#32) reducesTo_S100000x64_S64_d0 h_S_)
    (broadcastInDim S64 ![] bcast_S_S64 (constant S_ .f32 0x47C35000#32))

/-- The kernel side's result as a function of the twelve arguments. -/
def result (ids : IVec S100000 32) (ei : IVec S2x1600000 32) (ea : FVec F S1600000x4 .f32) (emb : FVec F S100x64 .f32)
    (W1 : FVec F S64x68 .f32) (b1 : FVec F S64 .f32) (Wu1 : FVec F S64x64 .f32) (bu1 : FVec F S64 .f32)
    (W2 : FVec F S64x68 .f32) (b2 : FVec F S64 .f32) (Wu2 : FVec F S64x64 .f32) (bu2 : FVec F S64 .f32) : FVec F S64 .f32 :=
  meanRows (round (round (takeEmb emb ids) (srcOf ei) (dstOf ei) ea W1 b1 Wu1 bu1) (srcOf ei) (dstOf ei) ea W2 b2 Wu2 bu2)

end Cert.KernelIdeal.Spec

namespace Cert.ReferenceIdeal.Spec

open Cert.ReferenceIdeal Idealize.ShloMosaic
open Facts₀ Facts

variable {F : FTy → Type} [FloatOps F] [Facts]

def wrapIds (ids : IVec S100000 32) : IVec S100000 32 :=
  select (cmpi .slt ids (broadcastInDim S100000 ![] bcast_S_S100000 (constantI S_ 32 0#32)))
    (addi ids (broadcastInDim S100000 ![] bcast_S_S100000 (constantI S_ 32 100#32))) ids

/-- x₀ on the reference side: row ids[n] of the table. -/
def gatherEmb (emb : FVec F S100x64 .f32) (ids : IVec S100000 32) : FVec F S100000x64 .f32 :=
  Host.gather gather_S100x64_S100000x1_S100000x64_1_0_n_n_0_1_164 emb
    (broadcastInDim S100000x1 ![0] bcast_S100000_S100000x1_0 (wrapIds ids))

def srcOf (ei : IVec S2x1600000 32) : IVec S1600000 32 :=
  shapeCast S1600000 (extractStridedSlice S1x1600000 ![0, 0] ei slices_S2x1600000_S1x1600000_0_0) shapeCasts_S1x1600000_S1600000

def dstOf (ei : IVec S2x1600000 32) : IVec S1600000 32 :=
  shapeCast S1600000 (extractStridedSlice S1x1600000 ![1, 0] ei slices_S2x1600000_S1x1600000_1_0) shapeCasts_S1x1600000_S1600000

def wrapSrc (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- x[src] on the reference side. -/
def gatherRows (x : FVec F S100000x64 .f32) (s : IVec S1600000 32) : FVec F S1600000x64 .f32 :=
  Host.gather gather_S100000x64_S1600000x1_S1600000x64_1_0_n_n_0_1_164 x
    (broadcastInDim S1600000x1 ![0] bcast_S1600000_S1600000x1_0 (wrapSrc s))

/-- The messages: relu([x[src] ; ea] · Wᵀ + b). -/
def msgOf (xg : FVec F S1600000x64 .f32) (ea : FVec F S1600000x4 .f32) (W : FVec F S64x68 .f32) (b : FVec F S64 .f32) :
    FVec F S1600000x64 .f32 :=
  maximumf
    (addf
      (Host.dotGeneral dot_S1600000x68_S68x64_S1600000x64_1_0_0_1_n_n none
        (concatenate S1600000x68 1 [⟨S1600000x64, xg⟩, ⟨S1600000x4, ea⟩] concatenates_S1600000x64_S1600000x4_S1600000x68_d1)
        (transpose S68x64 [1, 0] W transposes_S64x68_S68x64_1_0))
      (broadcastInDim S1600000x64 ![0, 1] bcast_S1x64_S1600000x64_0_1 (broadcastInDim S1x64 ![1] bcast_S64_S1x64_1 b)))
    (broadcastInDim S1600000x64 ![] bcast_S_S1600000x64 (constant S_ .f32 0x00000000#32))

def aggOf (dst : IVec S1600000 32) (msg : FVec F S1600000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst) msg

/-- The node update: relu((x + agg) · Wuᵀ + bu). -/
def updOf (x agg : FVec F S100000x64 .f32) (Wu : FVec F S64x64 .f32) (bu : FVec F S64 .f32) : FVec F S100000x64 .f32 :=
  maximumf
    (addf
      (Host.dotGeneral dot_S100000x64_S64x64_S100000x64_1_0_0_1_n_n none (addf x agg)
        (transpose S64x64 [1, 0] Wu transposes_S64x64_S64x64_1_0))
      (broadcastInDim S100000x64 ![0, 1] bcast_S1x64_S100000x64_0_1 (broadcastInDim S1x64 ![1] bcast_S64_S1x64_1 bu)))
    (broadcastInDim S100000x64 ![] bcast_S_S100000x64 (constant S_ .f32 0x00000000#32))

/-- One round of message passing on the reference side. -/
def round (x : FVec F S100000x64 .f32) (src dst : IVec S1600000 32) (ea : FVec F S1600000x4 .f32)
    (W : FVec F S64x68 .f32) (b : FVec F S64 .f32) (Wu : FVec F S64x64 .f32) (bu : FVec F S64 .f32) : FVec F S100000x64 .f32 :=
  updOf x (aggOf dst (msgOf (gatherRows x src) ea W b)) Wu bu

def meanRows (x : FVec F S100000x64 .f32) : FVec F S64 .f32 :=
  Host.divf (Host.reduceAdd x (constant S_ .f32 0x00000000#32) reducesTo_S100000x64_S64_d0 h_S_)
    (broadcastInDim S64 ![] bcast_S_S64 (constant S_ .f32 0x47C35000#32))

/-- The reference side's result as a function of the twelve arguments. -/
def result (ids : IVec S100000 32) (ei : IVec S2x1600000 32) (ea : FVec F S1600000x4 .f32) (emb : FVec F S100x64 .f32)
    (W1 : FVec F S64x68 .f32) (b1 : FVec F S64 .f32) (Wu1 : FVec F S64x64 .f32) (bu1 : FVec F S64 .f32)
    (W2 : FVec F S64x68 .f32) (b2 : FVec F S64 .f32) (Wu2 : FVec F S64x64 .f32) (bu2 : FVec F S64 .f32) : FVec F S64 .f32 :=
  meanRows (round (round (gatherEmb emb ids) (srcOf ei) (dstOf ei) ea W1 b1 Wu1 bu1) (srcOf ei) (dstOf ei) ea W2 b2 Wu2 bu2)

end Cert.ReferenceIdeal.Spec

end
-- ==== Proof.RegionEdge0.lean ====
/-
  The first message kernel's output array. Its grid has 200 points; point t fetches rows 8000 t … 8000 t + 7999 of the gathered features and of the edge attributes, the two weight blocks and the bias whole, and writes the body's value back to the same rows of the output. The blocks tile the output, so the array after the region is the body's value block by block.
-/
import proofs.«401947_j16612933501305_1_alg».proof.Proof.Gen.KernelIdeal.Frame
import proofs.«401947_j16612933501305_1_alg».proof.Proof.Spec
import Idealize.ShloMosaic.Lib.Pipeline.Value

set_option maxRecDepth 16384

noncomputable section

namespace Cert.KernelIdeal.RegionEdge0

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The zero offsets as the body's rectangles spell them. -/
theorem zero_off : (![0, 0] : Fin 2 → Nat) = fun _ => 0 := funext fun a => by fin_cases a <;> rfl

/-- The printed index maps over the 200 grid points: the two row-blocked inputs and the output sit at block (t, 0),
    the two weight blocks and the bias at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The block of the gathered features that point t reads is rows 8000 t … 8000 t + 7999. -/
theorem blk_xg (c : Dev nD) (t : Fin cfg0.N) :
    iblk0 V c 0 t = Spec.rows8000 (V c main_v5) ⟨t.val, t.isLt⟩ := by
  funext y
  obtain ⟨e00, e01, -⟩ := block_index t
  show V c main_v5 (((cfg0.win 0).blk t).view.emb y) = V c main_v5 _
  congr 1
  funext a; apply Fin.ext
  match a with
  | ⟨0, _⟩ => show win0_0.index t (0 : Fin 2) * 8000 + 1 * (y 0).val = t.val * 8000 + (y 0).val; omega
  | ⟨1, _⟩ => show win0_0.index t (1 : Fin 2) * 64 + 1 * (y 1).val = (y 1).val; omega

/-- The block of the edge attributes that point t reads is the same rows. -/
theorem blk_ea (c : Dev nD) (t : Fin cfg0.N) :
    iblk0 V c 1 t = Spec.rows8000 (V c main_arg2) ⟨t.val, t.isLt⟩ := by
  funext y
  obtain ⟨-, -, e10, e11, -⟩ := block_index t
  show V c main_arg2 (((cfg0.win 1).blk t).view.emb y) = V c main_arg2 _
  congr 1
  funext a; apply Fin.ext
  match a with
  | ⟨0, _⟩ => show win0_1.index t (0 : Fin 2) * 8000 + 1 * (y 0).val = t.val * 8000 + (y 0).val; omega
  | ⟨1, _⟩ => show win0_1.index t (1 : Fin 2) * 4 + 1 * (y 1).val = (y 1).val; omega

/-- The first weight block is read whole at every point. -/
theorem blk_wa (c : Dev nD) (t : Fin cfg0.N) : iblk0 V c 2 t = V c main_v7 := by
  funext y
  obtain ⟨-, -, -, -, e20, e21, -⟩ := block_index t
  show V c main_v7 (((cfg0.win 2).blk t).view.emb y) = V c main_v7 y
  congr 1
  funext a; apply Fin.ext
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The second weight block is read whole at every point. -/
theorem blk_wb (c : Dev nD) (t : Fin cfg0.N) : iblk0 V c 3 t = V c main_v9 := by
  funext y
  obtain ⟨-, -, -, -, -, -, e30, e31, -⟩ := block_index t
  show V c main_v9 (((cfg0.win 3).blk t).view.emb y) = V c main_v9 y
  congr 1
  funext a; apply Fin.ext
  match a with
  | ⟨0, _⟩ => show win0_3.index t (0 : Fin 2) * 4 + 1 * (y 0).val = (y 0).val; omega
  | ⟨1, _⟩ => show win0_3.index t (1 : Fin 2) * 64 + 1 * (y 1).val = (y 1).val; omega

/-- The bias row is read whole at every point. -/
theorem blk_b (c : Dev nD) (t : Fin cfg0.N) : iblk0 V c 4 t = V c main_v10 := by
  funext y
  obtain ⟨-, -, -, -, -, -, -, -, e40, e41, -⟩ := block_index t
  show V c main_v10 (((cfg0.win 4).blk t).view.emb y) = V c main_v10 y
  congr 1
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The whole-array function at row 8000 t + p is the body's value at row p of block t. -/
theorem edgeFn_at (xg : FVec F S1600000x64 .f32) (ea : FVec F S1600000x4 .f32) (wa : FVec F S64x64 .f32)
    (wb : FVec F S4x64 .f32) (b : FVec F S1x64 .f32) (t : Fin 200) (j : S8000x64.Idx) (i : S1600000x64.Idx)
    (h0 : (i 0).val = t.val * 8000 + (j 0).val) (h1 : (i 1).val = (j 1).val) :
    Spec.edgeFn xg ea wa wb b i = k0_pay1 (Spec.rows8000 xg t) (Spec.rows8000 ea t) wa wb b j := by
  have hj : (j 0).val < 8000 := ValueIdx.idx2_lt0 j
  have hq : (i 0).val / 8000 = t.val := by omega
  have hr : (i 0).val % 8000 = (j 0).val := by omega
  have key : ∀ (q : Fin 200) (p : S8000x64.Idx), q = t → p = j →
      k0_pay1 (Spec.rows8000 xg q) (Spec.rows8000 ea q) wa wb b p
        = k0_pay1 (Spec.rows8000 xg t) (Spec.rows8000 ea t) wa wb b j := by
    intro q p eq ep; subst eq; subst ep; rfl
  unfold Spec.edgeFn
  refine key _ _ (Fin.ext hq) ?_
  funext a
  match a with
  | ⟨0, _⟩ => exact Fin.ext hr
  | ⟨1, _⟩ => exact Fin.ext h1

/-- What point t writes back is block t of the whole-array function of the arrays the region finds. -/
theorem flushed_eq (c : Dev nD) (t : Fin cfg0.N) :
    (dat0 V c).flushed 5 t = ((cfg0.win 5).blk t).view.read (Elt F)
      (Spec.edgeFn (V c main_v5) (V c main_arg2) (V c main_v7) (V c main_v9) (V c main_v10)) := by
  show (cfg0.win 5).cut (grid0.coords t) ((dat0 V c).after 5 t) = _
  rw [after0_5]
  unfold out0_5
  rw [View.canon_unit_zero zero_off]
  simp only [View.ld_unit_zero (S := S8000x64) zero_off, View.ld_unit_zero (S := S8000x4) zero_off,
    View.ld_unit_zero (S := S64x64) zero_off, View.ld_unit_zero (S := S4x64) zero_off,
    View.ld_unit_zero (S := S1x64) zero_off]
  rw [blk_xg, blk_ea, blk_wa, blk_wb, blk_b]
  obtain ⟨-, -, -, -, -, -, -, -, -, -, e50, e51⟩ := block_index t
  funext j
  show k0_pay1 (Spec.rows8000 (V c main_v5) ⟨t.val, t.isLt⟩) (Spec.rows8000 (V c main_arg2) ⟨t.val, t.isLt⟩)
      (V c main_v7) (V c main_v9) (V c main_v10) j
    = Spec.edgeFn (V c main_v5) (V c main_arg2) (V c main_v7) (V c main_v9) (V c main_v10)
      (((cfg0.win 5).blk t).view.emb j)
  refine (edgeFn_at _ _ _ _ _ ⟨t.val, t.isLt⟩ j _ ?_ ?_).symm
  · show win0_5.index t (0 : Fin 2) * 8000 + 1 * (j 0).val = t.val * 8000 + (j 0).val; omega
  · show win0_5.index t (1 : Fin 2) * 64 + 1 * (j 1).val = (j 1).val; omega

/-- An index of the output array is in point t's block iff each coordinate is in the block's range on its axis. -/
theorem mem_blk (t : Fin cfg0.N) (i : S1600000x64.Idx) :
    i ∈ ((cfg0.win 5).blk t).view.set ↔ ∀ a : Fin 2, win0_5.index t a * S8000x64.size a ≤ (i a).val
      ∧ (i a).val < win0_5.index t a * S8000x64.size a + S8000x64.size a := by
  show i ∈ ((View.whole main_v11).slice (win0_5.rect t)).set ↔ _
  rw [View.set_slice_whole, Rect.mem_set_unit]
  exact Iff.rfl

/-- Every row r of the output lies in the block of point r / 8000, which writes back. -/
theorem cover (i : S1600000x64.Idx) :
    ∃ t : Fin cfg0.N, (cfg0.win 5).flush t = true ∧ i ∈ ((cfg0.win 5).blk t).view.set := by
  have hi0 : (i 0).val < 1600000 := ValueIdx.idx2_lt0 i
  have hi1 : (i 1).val < 64 := ValueIdx.idx2_lt1 i
  have hq : (i 0).val / 8000 < 200 := by omega
  refine ⟨⟨(i 0).val / 8000, hq⟩, flush0_5 _, ?_⟩
  rw [mem_blk]
  obtain ⟨-, -, -, -, -, -, -, -, -, -, e50, e51⟩ := block_index ⟨(i 0).val / 8000, hq⟩
  have e50' : win0_5.index ⟨(i 0).val / 8000, hq⟩ (0 : Fin 2) = (i 0).val / 8000 := e50
  intro a
  match a with
  | ⟨0, _⟩ =>
    show win0_5.index ⟨(i 0).val / 8000, hq⟩ (0 : Fin 2) * 8000 ≤ (i 0).val
      ∧ (i 0).val < win0_5.index ⟨(i 0).val / 8000, hq⟩ (0 : Fin 2) * 8000 + 8000
    omega
  | ⟨1, _⟩ =>
    show win0_5.index ⟨(i 0).val / 8000, hq⟩ (1 : Fin 2) * 64 ≤ (i 1).val
      ∧ (i 1).val < win0_5.index ⟨(i 0).val / 8000, hq⟩ (1 : Fin 2) * 64 + 64
    omega

/-- The output array after the region, from the arrays the region finds. -/
theorem final (c : Dev nD) :
    (dat0 V c).arrAt 5 cfg0.N = Cert.KernelIdeal.Spec.edgeFn (V c main_v5) (V c main_arg2) (V c main_v7) (V c main_v9) (V c main_v10) :=
  (dat0 V c).arrAt_eq_of_cover 5 _ (fun t _ => flushed_eq V c t) cover

end Cert.KernelIdeal.RegionEdge0

end
-- ==== Proof.RegionNode1.lean ====
/-
  The first node-update kernel's output array. Its grid has 20 points; point t fetches rows 5000 t … 5000 t + 4999 of the features and of the summed messages, the weights and the bias whole, and writes the body's value back to the same rows of the output. The blocks tile the output, so the array after the region is the body's value block by block.
-/
import proofs.«401947_j16612933501305_1_alg».proof.Proof.Gen.KernelIdeal.Frame
import proofs.«401947_j16612933501305_1_alg».proof.Proof.Spec
import Idealize.ShloMosaic.Lib.Pipeline.Value

set_option maxRecDepth 16384

noncomputable section

namespace Cert.KernelIdeal.RegionNode1

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The zero offsets of a whole-block access, as the constant function. -/
theorem zero_off : (![0, 0] : Fin 2 → Nat) = fun _ => 0 := funext fun a => by fin_cases a <;> rfl

/-- The block indices at grid point t, decided over the 20 points: the features, the summed messages and the output
    are at block (t, 0); the weights and the bias at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A grid point is one of the 20 row blocks. -/
theorem point_lt (t : Fin cfg1.N) : t.val < 20 := lt_of_lt_of_eq t.isLt N_1

/-- The features' block at point t is rows 5000 t … 5000 t + 4999 of the features. -/
theorem blk_x (c : Dev nD) (t : Fin cfg1.N) :
    (iblk1 V c 0 t : Vec F S5000x64 .f32)
      = Spec.rows5000 (V c main_v4 : S100000x64.Idx → Elt F .f32) ⟨t.val, point_lt t⟩ := by
  obtain ⟨e0, e1, -⟩ := index_facts t
  funext y
  show V c main_v4 (((cfg1.win 0).blk t).view.emb y)
    = V c main_v4 (ValueIdx.ix2 ⟨t.val * 5000 + (y 0).val, _⟩ (y 1))
  congr 1
  funext a; apply Fin.ext
  match a with
  | ⟨0, _⟩ => show win1_0.index t (0 : Fin 2) * 5000 + 1 * (y 0).val = t.val * 5000 + (y 0).val; rw [e0]; omega
  | ⟨1, _⟩ => show win1_0.index t (1 : Fin 2) * 64 + 1 * (y 1).val = (y 1).val; rw [e1]; omega

/-- The summed messages' block at point t is the same rows of the summed messages. -/
theorem blk_agg (c : Dev nD) (t : Fin cfg1.N) :
    (iblk1 V c 1 t : Vec F S5000x64 .f32)
      = Spec.rows5000 (V c main_v14 : S100000x64.Idx → Elt F .f32) ⟨t.val, point_lt t⟩ := by
  obtain ⟨-, -, e0, e1, -⟩ := index_facts t
  funext y
  show V c main_v14 (((cfg1.win 1).blk t).view.emb y)
    = V c main_v14 (ValueIdx.ix2 ⟨t.val * 5000 + (y 0).val, _⟩ (y 1))
  congr 1
  funext a; apply Fin.ext
  match a with
  | ⟨0, _⟩ => show win1_1.index t (0 : Fin 2) * 5000 + 1 * (y 0).val = t.val * 5000 + (y 0).val; rw [e0]; omega
  | ⟨1, _⟩ => show win1_1.index t (1 : Fin 2) * 64 + 1 * (y 1).val = (y 1).val; rw [e1]; omega

/-- The weights are fetched whole at every point. -/
theorem blk_wu (c : Dev nD) (t : Fin cfg1.N) :
    (iblk1 V c 2 t : Vec F S64x64 .f32) = (V c main_v15 : S64x64.Idx → Elt F .f32) := by
  obtain ⟨-, -, -, -, e0, e1, -⟩ := index_facts t
  funext y
  show V c main_v15 (((cfg1.win 2).blk t).view.emb y) = V c main_v15 y
  congr 1
  funext a; apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The bias row is fetched whole at every point. -/
theorem blk_bu (c : Dev nD) (t : Fin cfg1.N) :
    (iblk1 V c 3 t : Vec F S1x64 .f32) = (V c main_v16 : S1x64.Idx → Elt F .f32) := by
  obtain ⟨-, -, -, -, -, -, e0, e1, -⟩ := index_facts t
  funext y
  show V c main_v16 (((cfg1.win 3).blk t).view.emb y) = V c main_v16 y
  congr 1
  funext a; apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The whole-array function at row 5000 t + p is the body's value at row p of block t: the quotient of the row by
    5000 is t and the remainder is p, so both sides are the body applied to the same blocks at the same index. -/
theorem nodeFn_at (x agg : FVec F S100000x64 .f32) (wu : FVec F S64x64 .f32) (bu : FVec F S1x64 .f32)
    (t : Fin 20) (j : S5000x64.Idx) (i : S100000x64.Idx)
    (h0 : (i 0).val = t.val * 5000 + (j 0).val) (h1 : (i 1).val = (j 1).val) :
    Spec.nodeFn x agg wu bu i = k1_pay1 (Spec.rows5000 x t) (Spec.rows5000 agg t) wu bu j := by
  have hj : (j 0).val < 5000 := ValueIdx.idx2_lt0 j
  have hd : (i 0).val / 5000 = t.val := by rw [h0]; omega
  have hm : (i 0).val % 5000 = (j 0).val := by rw [h0]; omega
  have key : ∀ (t' : Fin 20) (j' : S5000x64.Idx), t' = t → j' = j →
      k1_pay1 (Spec.rows5000 x t') (Spec.rows5000 agg t') wu bu j'
        = k1_pay1 (Spec.rows5000 x t) (Spec.rows5000 agg t) wu bu j := by
    rintro _ _ rfl rfl; rfl
  unfold Spec.nodeFn
  refine key _ _ (Fin.ext hd) ?_
  funext a
  match a with
  | ⟨0, _⟩ => exact Fin.ext hm
  | ⟨1, _⟩ => exact Fin.ext h1

/-- What point t writes back is block t of the whole-array function of the arrays the region finds. -/
theorem flushed_eq (c : Dev nD) (t : Fin cfg1.N) :
    (dat1 V c).flushed 4 t = ((cfg1.win 4).blk t).view.read (Elt F)
      (Spec.nodeFn (V c main_v4) (V c main_v14) (V c main_v15) (V c main_v16)) := by
  show (cfg1.win 4).cut (grid1.coords t) ((dat1 V c).after 4 t) = _
  rw [after1_4]
  unfold out1_4
  rw [View.canon_unit_zero zero_off]
  simp only [View.ld_unit_zero (S := S5000x64) zero_off, View.ld_unit_zero (S := S64x64) zero_off,
    View.ld_unit_zero (S := S1x64) zero_off]
  rw [blk_x, blk_agg, blk_wu, blk_bu]
  obtain ⟨-, -, -, -, -, -, -, -, e0, e1⟩ := index_facts t
  funext j
  show k1_pay1 (Spec.rows5000 (V c main_v4 : S100000x64.Idx → Elt F .f32) ⟨t.val, point_lt t⟩)
      (Spec.rows5000 (V c main_v14 : S100000x64.Idx → Elt F .f32) ⟨t.val, point_lt t⟩) (V c main_v15) (V c main_v16) j
    = Spec.nodeFn (V c main_v4) (V c main_v14) (V c main_v15) (V c main_v16) (((cfg1.win 4).blk t).view.emb j)
  refine (nodeFn_at _ _ _ _ ⟨t.val, point_lt t⟩ j _ ?_ ?_).symm
  · show win1_4.index t (0 : Fin 2) * 5000 + 1 * (j 0).val = t.val * 5000 + (j 0).val; rw [e0]; omega
  · show win1_4.index t (1 : Fin 2) * 64 + 1 * (j 1).val = (j 1).val; rw [e1]; omega

/-- An index of the output array is in point t's block iff each coordinate is in the block's range on its axis. -/
theorem mem_blk (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v17).slice (win1_4.rect t)).set ↔ _
  rw [View.set_slice_whole, Rect.mem_set_unit]
  exact Iff.rfl

/-- The 20 row blocks tile the output: row r lies in the block of point r / 5000, which writes back. -/
theorem cover (i : S100000x64.Idx) :
    ∃ t : Fin cfg1.N, (cfg1.win 4).flush t = true ∧ i ∈ ((cfg1.win 4).blk t).view.set := by
  have hi0 : (i 0).val < 100000 := ValueIdx.idx2_lt0 i
  have hi1 : (i 1).val < 64 := ValueIdx.idx2_lt1 i
  have hN : cfg1.N = 20 := N_1
  have ht : (i 0).val / 5000 < cfg1.N := by rw [hN]; omega
  obtain ⟨-, -, -, -, -, -, -, -, e0, e1⟩ := index_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 64 ≤ (i 1).val
      ∧ (i 1).val < win1_4.index ⟨(i 0).val / 5000, ht⟩ (1 : Fin 2) * 64 + 64
    rw [e1]; omega

/-- The output array after the region, from the arrays the region finds. -/
theorem final (c : Dev nD) :
    (dat1 V c).arrAt 4 cfg1.N = Cert.KernelIdeal.Spec.nodeFn (V c main_v4) (V c main_v14) (V c main_v15) (V c main_v16) :=
  (dat1 V c).arrAt_eq_of_cover 4 (Spec.nodeFn (V c main_v4) (V c main_v14) (V c main_v15) (V c main_v16))
    (fun t _ => flushed_eq V c t) cover

end Cert.KernelIdeal.RegionNode1

end
-- ==== Proof.RegionEdge2.lean ====
/-
  The second message kernel's output array: as the first round's, over the second round's arrays.
-/
import proofs.«401947_j16612933501305_1_alg».proof.Proof.Gen.KernelIdeal.Frame
import proofs.«401947_j16612933501305_1_alg».proof.Proof.Spec
import Idealize.ShloMosaic.Lib.Pipeline.Value

set_option maxRecDepth 16384

noncomputable section

namespace Cert.KernelIdeal.RegionEdge2

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The zero offsets as the body's rectangles spell them. -/
theorem zero_off : (![0, 0] : Fin 2 → Nat) = fun _ => 0 := funext fun a => by fin_cases a <;> rfl

/-- The second round's body is the first round's, operation for operation. -/
theorem pay_eq (x0 : Vec F S8000x64 .f32) (x1 : Vec F S8000x4 .f32) (x2 : Vec F S64x64 .f32) (x3 : Vec F S4x64 .f32)
    (x4 : Vec F S1x64 .f32) : k2_pay1 x0 x1 x2 x3 x4 = k0_pay1 x0 x1 x2 x3 x4 := rfl

/-- The printed index maps over the 200 grid points: the two row-blocked inputs and the output sit at block (t, 0),
    the two weight blocks and the bias at block (0, 0). -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The block of the gathered features that point t reads is rows 8000 t … 8000 t + 7999. -/
theorem blk_xg (c : Dev nD) (t : Fin cfg2.N) :
    iblk2 V c 0 t = Spec.rows8000 (V c main_v18) ⟨t.val, t.isLt⟩ := by
  funext y
  obtain ⟨e00, e01, -⟩ := block_index t
  show V c main_v18 (((cfg2.win 0).blk t).view.emb y) = V c main_v18 _
  congr 1
  funext a; apply Fin.ext
  match a with
  | ⟨0, _⟩ => show win2_0.index t (0 : Fin 2) * 8000 + 1 * (y 0).val = t.val * 8000 + (y 0).val; omega
  | ⟨1, _⟩ => show win2_0.index t (1 : Fin 2) * 64 + 1 * (y 1).val = (y 1).val; omega

/-- The block of the edge attributes that point t reads is the same rows. -/
theorem blk_ea (c : Dev nD) (t : Fin cfg2.N) :
    iblk2 V c 1 t = Spec.rows8000 (V c main_arg2) ⟨t.val, t.isLt⟩ := by
  funext y
  obtain ⟨-, -, e10, e11, -⟩ := block_index t
  show V c main_arg2 (((cfg2.win 1).blk t).view.emb y) = V c main_arg2 _
  congr 1
  funext a; apply Fin.ext
  match a with
  | ⟨0, _⟩ => show win2_1.index t (0 : Fin 2) * 8000 + 1 * (y 0).val = t.val * 8000 + (y 0).val; omega
  | ⟨1, _⟩ => show win2_1.index t (1 : Fin 2) * 4 + 1 * (y 1).val = (y 1).val; omega

/-- The first weight block is read whole at every point. -/
theorem blk_wa (c : Dev nD) (t : Fin cfg2.N) : iblk2 V c 2 t = V c main_v20 := by
  funext y
  obtain ⟨-, -, -, -, e20, e21, -⟩ := block_index t
  show V c main_v20 (((cfg2.win 2).blk t).view.emb y) = V c main_v20 y
  congr 1
  funext a; apply Fin.ext
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- The second weight block is read whole at every point. -/
theorem blk_wb (c : Dev nD) (t : Fin cfg2.N) : iblk2 V c 3 t = V c main_v22 := by
  funext y
  obtain ⟨-, -, -, -, -, -, e30, e31, -⟩ := block_index t
  show V c main_v22 (((cfg2.win 3).blk t).view.emb y) = V c main_v22 y
  congr 1
  funext a; apply Fin.ext
  match a with
  | ⟨0, _⟩ => show win2_3.index t (0 : Fin 2) * 4 + 1 * (y 0).val = (y 0).val; omega
  | ⟨1, _⟩ => show win2_3.index t (1 : Fin 2) * 64 + 1 * (y 1).val = (y 1).val; omega

/-- The bias row is read whole at every point. -/
theorem blk_b (c : Dev nD) (t : Fin cfg2.N) : iblk2 V c 4 t = V c main_v23 := by
  funext y
  obtain ⟨-, -, -, -, -, -, -, -, e40, e41, -⟩ := block_index t
  show V c main_v23 (((cfg2.win 4).blk t).view.emb y) = V c main_v23 y
  congr 1
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- The whole-array function at row 8000 t + p is the body's value at row p of block t. -/
theorem edgeFn_at (xg : FVec F S1600000x64 .f32) (ea : FVec F S1600000x4 .f32) (wa : FVec F S64x64 .f32)
    (wb : FVec F S4x64 .f32) (b : FVec F S1x64 .f32) (t : Fin 200) (j : S8000x64.Idx) (i : S1600000x64.Idx)
    (h0 : (i 0).val = t.val * 8000 + (j 0).val) (h1 : (i 1).val = (j 1).val) :
    Spec.edgeFn xg ea wa wb b i = k0_pay1 (Spec.rows8000 xg t) (Spec.rows8000 ea t) wa wb b j := by
  have hj : (j 0).val < 8000 := ValueIdx.idx2_lt0 j
  have hq : (i 0).val / 8000 = t.val := by omega
  have hr : (i 0).val % 8000 = (j 0).val := by omega
  have key : ∀ (q : Fin 200) (p : S8000x64.Idx), q = t → p = j →
      k0_pay1 (Spec.rows8000 xg q) (Spec.rows8000 ea q) wa wb b p
        = k0_pay1 (Spec.rows8000 xg t) (Spec.rows8000 ea t) wa wb b j := by
    intro q p eq ep; subst eq; subst ep; rfl
  unfold Spec.edgeFn
  refine key _ _ (Fin.ext hq) ?_
  funext a
  match a with
  | ⟨0, _⟩ => exact Fin.ext hr
  | ⟨1, _⟩ => exact Fin.ext h1

/-- What point t writes back is block t of the whole-array function of the arrays the region finds. -/
theorem flushed_eq (c : Dev nD) (t : Fin cfg2.N) :
    (dat2 V c).flushed 5 t = ((cfg2.win 5).blk t).view.read (Elt F)
      (Spec.edgeFn (V c main_v18) (V c main_arg2) (V c main_v20) (V c main_v22) (V c main_v23)) := by
  show (cfg2.win 5).cut (grid2.coords t) ((dat2 V c).after 5 t) = _
  rw [after2_5]
  unfold out2_5
  rw [View.canon_unit_zero zero_off]
  simp only [View.ld_unit_zero (S := S8000x64) zero_off, View.ld_unit_zero (S := S8000x4) zero_off,
    View.ld_unit_zero (S := S64x64) zero_off, View.ld_unit_zero (S := S4x64) zero_off,
    View.ld_unit_zero (S := S1x64) zero_off]
  rw [pay_eq, blk_xg, blk_ea, blk_wa, blk_wb, blk_b]
  obtain ⟨-, -, -, -, -, -, -, -, -, -, e50, e51⟩ := block_index t
  funext j
  show k0_pay1 (Spec.rows8000 (V c main_v18) ⟨t.val, t.isLt⟩) (Spec.rows8000 (V c main_arg2) ⟨t.val, t.isLt⟩)
      (V c main_v20) (V c main_v22) (V c main_v23) j
    = Spec.edgeFn (V c main_v18) (V c main_arg2) (V c main_v20) (V c main_v22) (V c main_v23)
      (((cfg2.win 5).blk t).view.emb j)
  refine (edgeFn_at _ _ _ _ _ ⟨t.val, t.isLt⟩ j _ ?_ ?_).symm
  · show win2_5.index t (0 : Fin 2) * 8000 + 1 * (j 0).val = t.val * 8000 + (j 0).val; omega
  · show win2_5.index t (1 : Fin 2) * 64 + 1 * (j 1).val = (j 1).val; omega

/-- An index of the output array is in point t's block iff each coordinate is in the block's range on its axis. -/
theorem mem_blk (t : Fin cfg2.N) (i : S1600000x64.Idx) :
    i ∈ ((cfg2.win 5).blk t).view.set ↔ ∀ a : Fin 2, win2_5.index t a * S8000x64.size a ≤ (i a).val
      ∧ (i a).val < win2_5.index t a * S8000x64.size a + S8000x64.size a := by
  show i ∈ ((View.whole main_v24).slice (win2_5.rect t)).set ↔ _
  rw [View.set_slice_whole, Rect.mem_set_unit]
  exact Iff.rfl

/-- Every row r of the output lies in the block of point r / 8000, which writes back. -/
theorem cover (i : S1600000x64.Idx) :
    ∃ t : Fin cfg2.N, (cfg2.win 5).flush t = true ∧ i ∈ ((cfg2.win 5).blk t).view.set := by
  have hi0 : (i 0).val < 1600000 := ValueIdx.idx2_lt0 i
  have hi1 : (i 1).val < 64 := ValueIdx.idx2_lt1 i
  have hq : (i 0).val / 8000 < 200 := by omega
  refine ⟨⟨(i 0).val / 8000, hq⟩, flush2_5 _, ?_⟩
  rw [mem_blk]
  obtain ⟨-, -, -, -, -, -, -, -, -, -, e50, e51⟩ := block_index ⟨(i 0).val / 8000, hq⟩
  have e50' : win2_5.index ⟨(i 0).val / 8000, hq⟩ (0 : Fin 2) = (i 0).val / 8000 := e50
  intro a
  match a with
  | ⟨0, _⟩ =>
    show win2_5.index ⟨(i 0).val / 8000, hq⟩ (0 : Fin 2) * 8000 ≤ (i 0).val
      ∧ (i 0).val < win2_5.index ⟨(i 0).val / 8000, hq⟩ (0 : Fin 2) * 8000 + 8000
    omega
  | ⟨1, _⟩ =>
    show win2_5.index ⟨(i 0).val / 8000, hq⟩ (1 : Fin 2) * 64 ≤ (i 1).val
      ∧ (i 1).val < win2_5.index ⟨(i 0).val / 8000, hq⟩ (1 : Fin 2) * 64 + 64
    omega

/-- The output array after the region, from the arrays the region finds. -/
theorem final (c : Dev nD) :
    (dat2 V c).arrAt 5 cfg2.N = Cert.KernelIdeal.Spec.edgeFn (V c main_v18) (V c main_arg2) (V c main_v20) (V c main_v22) (V c main_v23) :=
  (dat2 V c).arrAt_eq_of_cover 5 _ (fun t _ => flushed_eq V c t) cover

end Cert.KernelIdeal.RegionEdge2

end
-- ==== Proof.RegionNode3.lean ====
/-
  The second node-update kernel's output array: as the first round's, over the second round's arrays.
-/
import proofs.«401947_j16612933501305_1_alg».proof.Proof.Gen.KernelIdeal.Frame
import proofs.«401947_j16612933501305_1_alg».proof.Proof.Spec
import Idealize.ShloMosaic.Lib.Pipeline.Value

set_option maxRecDepth 16384

noncomputable section

namespace Cert.KernelIdeal.RegionNode3

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The zero offsets of a whole-block access, as the constant function. -/
theorem zero_off : (![0, 0] : Fin 2 → Nat) = fun _ => 0 := funext fun a => by fin_cases a <;> rfl

/-- The second round's body is the first round's: the same operations in the same order, so one whole-array function
    serves both rounds. -/
theorem pay_eq (v0 v2 : Vec F S5000x64 .f32) (v4 : Vec F S64x64 .f32) (v6 : Vec F S1x64 .f32) :
    k3_pay1 v0 v2 v4 v6 = k1_pay1 v0 v2 v4 v6 := rfl

/-- The block indices at grid point t, decided over the 20 points: the features, the summed messages and the output
    are at block (t, 0); the weights and the bias at block (0, 0). -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- A grid point is one of the 20 row blocks. -/
theorem point_lt (t : Fin cfg3.N) : t.val < 20 := lt_of_lt_of_eq t.isLt N_3

/-- The features' block at point t is rows 5000 t … 5000 t + 4999 of the first round's output. -/
theorem blk_x (c : Dev nD) (t : Fin cfg3.N) :
    (iblk3 V c 0 t : Vec F S5000x64 .f32)
      = Spec.rows5000 (V c main_v17 : S100000x64.Idx → Elt F .f32) ⟨t.val, point_lt t⟩ := by
  obtain ⟨e0, e1, -⟩ := index_facts t
  funext y
  show V c main_v17 (((cfg3.win 0).blk t).view.emb y)
    = V c main_v17 (ValueIdx.ix2 ⟨t.val * 5000 + (y 0).val, _⟩ (y 1))
  congr 1
  funext a; apply Fin.ext
  match a with
  | ⟨0, _⟩ => show win3_0.index t (0 : Fin 2) * 5000 + 1 * (y 0).val = t.val * 5000 + (y 0).val; rw [e0]; omega
  | ⟨1, _⟩ => show win3_0.index t (1 : Fin 2) * 64 + 1 * (y 1).val = (y 1).val; rw [e1]; omega

/-- The summed messages' block at point t is the same rows of the second round's summed messages. -/
theorem blk_agg (c : Dev nD) (t : Fin cfg3.N) :
    (iblk3 V c 1 t : Vec F S5000x64 .f32)
      = Spec.rows5000 (V c main_v27 : S100000x64.Idx → Elt F .f32) ⟨t.val, point_lt t⟩ := by
  obtain ⟨-, -, e0, e1, -⟩ := index_facts t
  funext y
  show V c main_v27 (((cfg3.win 1).blk t).view.emb y)
    = V c main_v27 (ValueIdx.ix2 ⟨t.val * 5000 + (y 0).val, _⟩ (y 1))
  congr 1
  funext a; apply Fin.ext
  match a with
  | ⟨0, _⟩ => show win3_1.index t (0 : Fin 2) * 5000 + 1 * (y 0).val = t.val * 5000 + (y 0).val; rw [e0]; omega
  | ⟨1, _⟩ => show win3_1.index t (1 : Fin 2) * 64 + 1 * (y 1).val = (y 1).val; rw [e1]; omega

/-- The second round's weights are fetched whole at every point. -/
theorem blk_wu (c : Dev nD) (t : Fin cfg3.N) :
    (iblk3 V c 2 t : Vec F S64x64 .f32) = (V c main_v28 : S64x64.Idx → Elt F .f32) := by
  obtain ⟨-, -, -, -, e0, e1, -⟩ := index_facts t
  funext y
  show V c main_v28 (((cfg3.win 2).blk t).view.emb y) = V c main_v28 y
  congr 1
  funext a; apply Fin.ext
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- The second round's bias row is fetched whole at every point. -/
theorem blk_bu (c : Dev nD) (t : Fin cfg3.N) :
    (iblk3 V c 3 t : Vec F S1x64 .f32) = (V c main_v29 : S1x64.Idx → Elt F .f32) := by
  obtain ⟨-, -, -, -, -, -, e0, e1, -⟩ := index_facts t
  funext y
  show V c main_v29 (((cfg3.win 3).blk t).view.emb y) = V c main_v29 y
  congr 1
  funext a; apply Fin.ext
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

/-- The whole-array function at row 5000 t + p is the body's value at row p of block t: the quotient of the row by
    5000 is t and the remainder is p, so both sides are the body applied to the same blocks at the same index. -/
theorem nodeFn_at (x agg : FVec F S100000x64 .f32) (wu : FVec F S64x64 .f32) (bu : FVec F S1x64 .f32)
    (t : Fin 20) (j : S5000x64.Idx) (i : S100000x64.Idx)
    (h0 : (i 0).val = t.val * 5000 + (j 0).val) (h1 : (i 1).val = (j 1).val) :
    Spec.nodeFn x agg wu bu i = k1_pay1 (Spec.rows5000 x t) (Spec.rows5000 agg t) wu bu j := by
  have hj : (j 0).val < 5000 := ValueIdx.idx2_lt0 j
  have hd : (i 0).val / 5000 = t.val := by rw [h0]; omega
  have hm : (i 0).val % 5000 = (j 0).val := by rw [h0]; omega
  have key : ∀ (t' : Fin 20) (j' : S5000x64.Idx), t' = t → j' = j →
      k1_pay1 (Spec.rows5000 x t') (Spec.rows5000 agg t') wu bu j'
        = k1_pay1 (Spec.rows5000 x t) (Spec.rows5000 agg t) wu bu j := by
    rintro _ _ rfl rfl; rfl
  unfold Spec.nodeFn
  refine key _ _ (Fin.ext hd) ?_
  funext a
  match a with
  | ⟨0, _⟩ => exact Fin.ext hm
  | ⟨1, _⟩ => exact Fin.ext h1

/-- What point t writes back is block t of the whole-array function of the arrays the region finds. -/
theorem flushed_eq (c : Dev nD) (t : Fin cfg3.N) :
    (dat3 V c).flushed 4 t = ((cfg3.win 4).blk t).view.read (Elt F)
      (Spec.nodeFn (V c main_v17) (V c main_v27) (V c main_v28) (V c main_v29)) := by
  show (cfg3.win 4).cut (grid3.coords t) ((dat3 V c).after 4 t) = _
  rw [after3_4]
  unfold out3_4
  rw [View.canon_unit_zero zero_off]
  simp only [View.ld_unit_zero (S := S5000x64) zero_off, View.ld_unit_zero (S := S64x64) zero_off,
    View.ld_unit_zero (S := S1x64) zero_off]
  rw [pay_eq, blk_x, blk_agg, blk_wu, blk_bu]
  obtain ⟨-, -, -, -, -, -, -, -, e0, e1⟩ := index_facts t
  funext j
  show k1_pay1 (Spec.rows5000 (V c main_v17 : S100000x64.Idx → Elt F .f32) ⟨t.val, point_lt t⟩)
      (Spec.rows5000 (V c main_v27 : S100000x64.Idx → Elt F .f32) ⟨t.val, point_lt t⟩) (V c main_v28) (V c main_v29) j
    = Spec.nodeFn (V c main_v17) (V c main_v27) (V c main_v28) (V c main_v29) (((cfg3.win 4).blk t).view.emb j)
  refine (nodeFn_at _ _ _ _ ⟨t.val, point_lt t⟩ j _ ?_ ?_).symm
  · show win3_4.index t (0 : Fin 2) * 5000 + 1 * (j 0).val = t.val * 5000 + (j 0).val; rw [e0]; omega
  · show win3_4.index t (1 : Fin 2) * 64 + 1 * (j 1).val = (j 1).val; rw [e1]; omega

/-- An index of the output array is in point t's block iff each coordinate is in the block's range on its axis. -/
theorem mem_blk (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v30).slice (win3_4.rect t)).set ↔ _
  rw [View.set_slice_whole, Rect.mem_set_unit]
  exact Iff.rfl

/-- The 20 row blocks tile the output: row r lies in the block of point r / 5000, which writes back. -/
theorem cover (i : S100000x64.Idx) :
    ∃ t : Fin cfg3.N, (cfg3.win 4).flush t = true ∧ i ∈ ((cfg3.win 4).blk t).view.set := by
  have hi0 : (i 0).val < 100000 := ValueIdx.idx2_lt0 i
  have hi1 : (i 1).val < 64 := ValueIdx.idx2_lt1 i
  have hN : cfg3.N = 20 := N_3
  have ht : (i 0).val / 5000 < cfg3.N := by rw [hN]; omega
  obtain ⟨-, -, -, -, -, -, -, -, e0, e1⟩ := index_facts ⟨(i 0).val / 5000, ht⟩
  refine ⟨⟨(i 0).val / 5000, ht⟩, flush3_4 _, ?_⟩
  rw [mem_blk]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_4.index ⟨(i 0).val / 5000, ht⟩ (1 : Fin 2) * 64 ≤ (i 1).val
      ∧ (i 1).val < win3_4.index ⟨(i 0).val / 5000, ht⟩ (1 : Fin 2) * 64 + 64
    rw [e1]; omega

/-- The output array after the region, from the arrays the region finds. -/
theorem final (c : Dev nD) :
    (dat3 V c).arrAt 4 cfg3.N = Cert.KernelIdeal.Spec.nodeFn (V c main_v17) (V c main_v27) (V c main_v28) (V c main_v29) :=
  (dat3 V c).arrAt_eq_of_cover 4 (Spec.nodeFn (V c main_v17) (V c main_v27) (V c main_v28) (V c main_v29))
    (fun t _ => flushed_eq V c t) cover

end Cert.KernelIdeal.RegionNode3

end
-- ==== Proof.KernelChain.lean ====
/-
  The kernel side's result buffer at the end of @main, read back through the host stretches and the four regions to
  the arguments: it is `Spec.result` of the twelve argument arrays.
-/
import proofs.«401947_j16612933501305_1_alg».proof.Proof.RegionEdge0
import proofs.«401947_j16612933501305_1_alg».proof.Proof.RegionNode1
import proofs.«401947_j16612933501305_1_alg».proof.Proof.RegionEdge2
import proofs.«401947_j16612933501305_1_alg».proof.Proof.RegionNode3

set_option maxRecDepth 16384

noncomputable section

namespace Cert.KernelIdeal.Chain

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The references each stretch of host operations writes

A buffer outside a stretch's list holds after the stretch what it held before. -/

abbrev wr0 : List (Ref sig .tc) := [main_v0, main_v1, main_v2, main_v3]

abbrev wr01 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v4]

abbrev wr02 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v5]

abbrev wr03 : List (Ref sig .tc) := [main_v6, main_v7, main_v8, main_v9, main_v10]

abbrev wr1 : List (Ref sig .tc) := [main_cst, main_v12, main_v13, main_v14, main_v15, main_v16]

abbrev wr2 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v18]

abbrev wr21 : List (Ref sig .tc) := [main_v19, main_v20, main_v21, main_v22, main_v23]

abbrev wr3 : List (Ref sig .tc) := [main_cst_0, main_v25, main_v26, main_v27, main_v28, main_v29]

section Writes

variable (F)

theorem writes0 : (hostOps0 : List (HloOp τ sig (Elt F))).Forall fun op =>
    op.writes ⊆ (wr0.map (Proc.devRef (τ := τ) .tc)).toFinset := by
  simp only [List.Forall, StableHlo.unary_writes, StableHlo.reshape_writes, Finset.singleton_subset_iff, List.mem_toFinset,
    List.map_cons, List.map_nil, List.mem_cons, true_or, or_true, and_self]

theorem writes01 : (hostOps0_1 : List (HloOp τ sig (Elt F))).Forall fun op =>
    op.writes ⊆ (wr01.map (Proc.devRef (τ := τ) .tc)).toFinset := by
  simp only [List.Forall, StableHlo.nullary_writes, StableHlo.unary_writes, StableHlo.binary_writes, StableHlo.ternary_writes,
    Finset.singleton_subset_iff, List.mem_toFinset, List.map_cons, List.map_nil, List.mem_cons, true_or, or_true, and_self]

theorem writes02 : (hostOps0_2 : List (HloOp τ sig (Elt F))).Forall fun op =>
    op.writes ⊆ (wr02.map (Proc.devRef (τ := τ) .tc)).toFinset := by
  simp only [List.Forall, StableHlo.nullary_writes, StableHlo.unary_writes, StableHlo.binary_writes, StableHlo.ternary_writes,
    Finset.singleton_subset_iff, List.mem_toFinset, List.map_cons, List.map_nil, List.mem_cons, true_or, or_true, and_self]

theorem writes03 : (hostOps0_3 : List (HloOp τ sig (Elt F))).Forall fun op =>
    op.writes ⊆ (wr03.map (Proc.devRef (τ := τ) .tc)).toFinset := by
  simp only [List.Forall, StableHlo.unary_writes, StableHlo.reshape_writes, Finset.singleton_subset_iff, List.mem_toFinset,
    List.map_cons, List.map_nil, List.mem_cons, true_or, or_true, and_self]

theorem writes1 : (hostOps1 : List (HloOp τ sig (Elt F))).Forall fun op =>
    op.writes ⊆ (wr1.map (Proc.devRef (τ := τ) .tc)).toFinset := by
  simp only [List.Forall, StableHlo.nullary_writes, StableHlo.unary_writes, StableHlo.ternary_writes, StableHlo.reshape_writes,
    Finset.singleton_subset_iff, List.mem_toFinset, List.map_cons, List.map_nil, List.mem_cons, true_or, or_true, and_self]

theorem writes2 : (hostOps2 : List (HloOp τ sig (Elt F))).Forall fun op =>
    op.writes ⊆ (wr2.map (Proc.devRef (τ := τ) .tc)).toFinset := by
  simp only [List.Forall, StableHlo.nullary_writes, StableHlo.unary_writes, StableHlo.binary_writes, StableHlo.ternary_writes,
    Finset.singleton_subset_iff, List.mem_toFinset, List.map_cons, List.map_nil, List.mem_cons, true_or, or_true, and_self]

theorem writes21 : (hostOps2_1 : List (HloOp τ sig (Elt F))).Forall fun op =>
    op.writes ⊆ (wr21.map (Proc.devRef (τ := τ) .tc)).toFinset := by
  simp only [List.Forall, StableHlo.unary_writes, StableHlo.reshape_writes, Finset.singleton_subset_iff, List.mem_toFinset,
    List.map_cons, List.map_nil, List.mem_cons, true_or, or_true, and_self]

theorem writes3 : (hostOps3 : List (HloOp τ sig (Elt F))).Forall fun op =>
    op.writes ⊆ (wr3.map (Proc.devRef (τ := τ) .tc)).toFinset := by
  simp only [List.Forall, StableHlo.nullary_writes, StableHlo.unary_writes, StableHlo.ternary_writes, StableHlo.reshape_writes,
    Finset.singleton_subset_iff, List.mem_toFinset, List.map_cons, List.map_nil, List.mem_cons, true_or, or_true, and_self]

end Writes

section Stretches

/-! ## Each stretch at any entry contents: what it leaves unchanged, and what it computes -/

variable (Wp : Valuation τ sig (Elt F))

theorem keep0 (r : Ref sig .tc) (h : r ∉ wr0) :
    StableHlo.after hostOps0 Wp (Proc.devRef .tc r) = Wp (Proc.devRef .tc r) :=
  StableHlo.after_of_writes_sub hostOps0 Wp (writes0 F) h

theorem keep01 (r : Ref sig .tc) (h : r ∉ wr01) :
    StableHlo.after hostOps0_1 Wp (Proc.devRef .tc r) = Wp (Proc.devRef .tc r) :=
  StableHlo.after_of_writes_sub hostOps0_1 Wp (writes01 F) h

theorem keep02 (r : Ref sig .tc) (h : r ∉ wr02) :
    StableHlo.after hostOps0_2 Wp (Proc.devRef .tc r) = Wp (Proc.devRef .tc r) :=
  StableHlo.after_of_writes_sub hostOps0_2 Wp (writes02 F) h

theorem keep03 (r : Ref sig .tc) (h : r ∉ wr03) :
    StableHlo.after hostOps0_3 Wp (Proc.devRef .tc r) = Wp (Proc.devRef .tc r) :=
  StableHlo.after_of_writes_sub hostOps0_3 Wp (writes03 F) h

theorem keep1 (r : Ref sig .tc) (h : r ∉ wr1) :
    StableHlo.after hostOps1 Wp (Proc.devRef .tc r) = Wp (Proc.devRef .tc r) :=
  StableHlo.after_of_writes_sub hostOps1 Wp (writes1 F) h

theorem keep2 (r : Ref sig .tc) (h : r ∉ wr2) :
    StableHlo.after hostOps2 Wp (Proc.devRef .tc r) = Wp (Proc.devRef .tc r) :=
  StableHlo.after_of_writes_sub hostOps2 Wp (writes2 F) h

theorem keep21 (r : Ref sig .tc) (h : r ∉ wr21) :
    StableHlo.after hostOps2_1 Wp (Proc.devRef .tc r) = Wp (Proc.devRef .tc r) :=
  StableHlo.after_of_writes_sub hostOps2_1 Wp (writes21 F) h

theorem keep3 (r : Ref sig .tc) (h : r ∉ wr3) :
    StableHlo.after hostOps3 Wp (Proc.devRef .tc r) = Wp (Proc.devRef .tc r) :=
  StableHlo.after_of_writes_sub hostOps3 Wp (writes3 F) h

/-- The edge list's two rows. -/
theorem s0_v1 : StableHlo.after hostOps0 Wp (Proc.devRef .tc main_v1) = Spec.srcOf (Wp (Proc.devRef .tc main_arg1)) := by
  after_results; rfl

theorem s0_v3 : StableHlo.after hostOps0 Wp (Proc.devRef .tc main_v3) = Spec.dstOf (Wp (Proc.devRef .tc main_arg1)) := by
  after_results; rfl

/-- The gather of the embedding table with its range test. The called function's operations carry their operands
    along the equation "this buffer's type is the value's type"; each such transport is the identity, and is removed
    operation by operation before the stretch is read. -/
theorem s01_v4 : StableHlo.after hostOps0_1 Wp (Proc.devRef .tc main_v4)
    = Spec.takeEmb (Wp (Proc.devRef .tc main_arg3)) (Wp (Proc.devRef .tc main_arg0)) := by
  simp only [hostOps0_1, StableHlo.TRef.nullary, StableHlo.TRef.unary, StableHlo.TRef.binary, StableHlo.TRef.ternary,
    StableHlo.TRef.toBuf, StableHlo.TRef.ofBuf, cast_eq]
  after_results_simp
  rfl

/-- The gather of the node features at the source indices with its range test, first round. -/
theorem s02_v5 : StableHlo.after hostOps0_2 Wp (Proc.devRef .tc main_v5)
    = Spec.takeRows (Wp (Proc.devRef .tc main_v4)) (Wp (Proc.devRef .tc main_v1)) := by
  simp only [hostOps0_2, StableHlo.TRef.nullary, StableHlo.TRef.unary, StableHlo.TRef.binary, StableHlo.TRef.ternary,
    StableHlo.TRef.toBuf, StableHlo.TRef.ofBuf, cast_eq]
  after_results_simp
  rfl

/-- The first round's weights and bias as the message kernel takes them. -/
theorem s03_v7 : StableHlo.after hostOps0_3 Wp (Proc.devRef .tc main_v7) = Spec.waT (Wp (Proc.devRef .tc main_arg4)) := by
  after_results; rfl

theorem s03_v9 : StableHlo.after hostOps0_3 Wp (Proc.devRef .tc main_v9) = Spec.wbT (Wp (Proc.devRef .tc main_arg4)) := by
  after_results; rfl

theorem s03_v10 : StableHlo.after hostOps0_3 Wp (Proc.devRef .tc main_v10) = Spec.row1 (Wp (Proc.devRef .tc main_arg5)) := by
  after_results; rfl

/-- The scatter-add of the first round's messages, and the update's weights and bias. -/
theorem s1_v14 : StableHlo.after hostOps1 Wp (Proc.devRef .tc main_v14)
    = Spec.aggOf (Wp (Proc.devRef .tc main_v3)) (Wp (Proc.devRef .tc main_v11)) := by
  after_results; rfl

theorem s1_v15 : StableHlo.after hostOps1 Wp (Proc.devRef .tc main_v15) = Spec.wuT (Wp (Proc.devRef .tc main_arg6)) := by
  after_results; rfl

theorem s1_v16 : StableHlo.after hostOps1 Wp (Proc.devRef .tc main_v16) = Spec.row1 (Wp (Proc.devRef .tc main_arg7)) := by
  after_results; rfl

/-- The gather of the node features at the source indices with its range test, second round. -/
theorem s2_v18 : StableHlo.after hostOps2 Wp (Proc.devRef .tc main_v18)
    = Spec.takeRows (Wp (Proc.devRef .tc main_v17)) (Wp (Proc.devRef .tc main_v1)) := by
  simp only [hostOps2, StableHlo.TRef.nullary, StableHlo.TRef.unary, StableHlo.TRef.binary, StableHlo.TRef.ternary,
    StableHlo.TRef.toBuf, StableHlo.TRef.ofBuf, cast_eq]
  after_results_simp
  rfl

/-- The second round's weights and bias as the message kernel takes them. -/
theorem s21_v20 : StableHlo.after hostOps2_1 Wp (Proc.devRef .tc main_v20) = Spec.waT (Wp (Proc.devRef .tc main_arg8)) := by
  after_results; rfl

theorem s21_v22 : StableHlo.after hostOps2_1 Wp (Proc.devRef .tc main_v22) = Spec.wbT (Wp (Proc.devRef .tc main_arg8)) := by
  after_results; rfl

theorem s21_v23 : StableHlo.after hostOps2_1 Wp (Proc.devRef .tc main_v23) = Spec.row1 (Wp (Proc.devRef .tc main_arg9)) := by
  after_results; rfl

/-- The scatter-add of the second round's messages, and the update's weights and bias. -/
theorem s3_v27 : StableHlo.after hostOps3 Wp (Proc.devRef .tc main_v27)
    = Spec.aggOf (Wp (Proc.devRef .tc main_v3)) (Wp (Proc.devRef .tc main_v24)) := by
  after_results; rfl

theorem s3_v28 : StableHlo.after hostOps3 Wp (Proc.devRef .tc main_v28) = Spec.wuT (Wp (Proc.devRef .tc main_arg10)) := by
  after_results; rfl

theorem s3_v29 : StableHlo.after hostOps3 Wp (Proc.devRef .tc main_v29) = Spec.row1 (Wp (Proc.devRef .tc main_arg11)) := by
  after_results; rfl

/-- The mean over the nodes. -/
theorem s4_v33 : StableHlo.after hostOps4 Wp (Proc.devRef .tc main_v33) = Spec.meanRows (Wp (Proc.devRef .tc main_v30)) := by
  after_results; rfl

end Stretches

/-! ## The arguments and the values the program computes from them -/

abbrev a0 (c : Dev nD) : IVec S100000 32 := m ((c.tc : Thread nD τ).loc main_arg0)
abbrev a1 (c : Dev nD) : IVec S2x1600000 32 := m ((c.tc : Thread nD τ).loc main_arg1)
abbrev a2 (c : Dev nD) : FVec F S1600000x4 .f32 := m ((c.tc : Thread nD τ).loc main_arg2)
abbrev a3 (c : Dev nD) : FVec F S100x64 .f32 := m ((c.tc : Thread nD τ).loc main_arg3)
abbrev a4 (c : Dev nD) : FVec F S64x68 .f32 := m ((c.tc : Thread nD τ).loc main_arg4)
abbrev a5 (c : Dev nD) : FVec F S64 .f32 := m ((c.tc : Thread nD τ).loc main_arg5)
abbrev a6 (c : Dev nD) : FVec F S64x64 .f32 := m ((c.tc : Thread nD τ).loc main_arg6)
abbrev a7 (c : Dev nD) : FVec F S64 .f32 := m ((c.tc : Thread nD τ).loc main_arg7)
abbrev a8 (c : Dev nD) : FVec F S64x68 .f32 := m ((c.tc : Thread nD τ).loc main_arg8)
abbrev a9 (c : Dev nD) : FVec F S64 .f32 := m ((c.tc : Thread nD τ).loc main_arg9)
abbrev a10 (c : Dev nD) : FVec F S64x64 .f32 := m ((c.tc : Thread nD τ).loc main_arg10)
abbrev a11 (c : Dev nD) : FVec F S64 .f32 := m ((c.tc : Thread nD τ).loc main_arg11)

/-- The source and the target node of every edge. -/
abbrev src (c : Dev nD) : IVec S1600000 32 := Spec.srcOf (a1 m c)
abbrev dst (c : Dev nD) : IVec S1600000 32 := Spec.dstOf (a1 m c)
/-- The node features before the first round, after it, and after the second. -/
abbrev x0 (c : Dev nD) : FVec F S100000x64 .f32 := Spec.takeEmb (a3 m c) (a0 m c)
/-- The messages of a round from features x under weights W and bias b. -/
abbrev msg (c : Dev nD) (x : FVec F S100000x64 .f32) (W : FVec F S64x68 .f32) (b : FVec F S64 .f32) : FVec F S1600000x64 .f32 :=
  Spec.edgeFn (Spec.takeRows x (src m c)) (a2 m c) (Spec.waT W) (Spec.wbT W) (Spec.row1 b)
abbrev x1 (c : Dev nD) : FVec F S100000x64 .f32 :=
  Spec.nodeFn (x0 m c) (Spec.aggOf (dst m c) (msg m c (x0 m c) (a4 m c) (a5 m c))) (Spec.wuT (a6 m c)) (Spec.row1 (a7 m c))
abbrev x2 (c : Dev nD) : FVec F S100000x64 .f32 :=
  Spec.nodeFn (x1 m c) (Spec.aggOf (dst m c) (msg m c (x1 m c) (a8 m c) (a9 m c))) (Spec.wuT (a10 m c)) (Spec.row1 (a11 m c))

/-- Equal arguments give equal kernel values. -/
theorem edgeFn_congr {xg xg' : FVec F S1600000x64 .f32} {ea ea' : FVec F S1600000x4 .f32} {wa wa' : FVec F S64x64 .f32}
    {wb wb' : FVec F S4x64 .f32} {b b' : FVec F S1x64 .f32} (h1 : xg = xg') (h2 : ea = ea') (h3 : wa = wa') (h4 : wb = wb')
    (h5 : b = b') : Spec.edgeFn xg ea wa wb b = Spec.edgeFn xg' ea' wa' wb' b' := by
  subst h1 h2 h3 h4 h5; rfl

theorem nodeFn_congr {x x' agg agg' : FVec F S100000x64 .f32} {wu wu' : FVec F S64x64 .f32} {bu bu' : FVec F S1x64 .f32}
    (h1 : x = x') (h2 : agg = agg') (h3 : wu = wu') (h4 : bu = bu') : Spec.nodeFn x agg wu bu = Spec.nodeFn x' agg' wu' bu' := by
  subst h1 h2 h3 h4; rfl

/-! ## The boundaries, earliest first

At each boundary: the buffers a later stage reads, as the values above; and every buffer nothing has written yet, at its
launch contents. -/

/-! ### After the first stretch: the edge list's rows -/

theorem W1_launch (c : Dev nD) (r : Ref sig .tc) (h : r ∉ wr0) :
    W1 m ρ c (Proc.devRef .tc r) = m ((c : Thread nD τ).loc r) :=
  keep0 (W0 m ρ c) r h

theorem W1_v1 (c : Dev nD) : W1 m ρ c (Proc.devRef .tc main_v1) = src m c := s0_v1 (W0 m ρ c)
theorem W1_v3 (c : Dev nD) : W1 m ρ c (Proc.devRef .tc main_v3) = dst m c := s0_v3 (W0 m ρ c)

/-! ### After the embedding lookup -/

theorem W2_launch (c : Dev nD) (r : Ref sig .tc) (h : r ∉ wr01 ++ wr0) :
    W2 m ρ c (Proc.devRef .tc r) = m ((c : Thread nD τ).loc r) :=
  (keep01 (W1 m ρ c) r fun hm => h (List.mem_append_left _ hm)).trans
    (W1_launch m ρ c r fun hm => h (List.mem_append_right _ hm))

theorem W2_v4 (c : Dev nD) : W2 m ρ c (Proc.devRef .tc main_v4) = x0 m c :=
  (s01_v4 (W1 m ρ c)).trans
    (congrArg₂ Spec.takeEmb (W1_launch m ρ c main_arg3 (by decide)) (W1_launch m ρ c main_arg0 (by decide)))
theorem W2_v1 (c : Dev nD) : W2 m ρ c (Proc.devRef .tc main_v1) = src m c :=
  (keep01 (W1 m ρ c) main_v1 (by decide)).trans (W1_v1 m ρ c)
theorem W2_v3 (c : Dev nD) : W2 m ρ c (Proc.devRef .tc main_v3) = dst m c :=
  (keep01 (W1 m ρ c) main_v3 (by decide)).trans (W1_v3 m ρ c)

/-! ### After the first gather at the source indices -/

theorem W3_launch (c : Dev nD) (r : Ref sig .tc) (h : r ∉ wr02 ++ (wr01 ++ wr0)) :
    W3 m ρ c (Proc.devRef .tc r) = m ((c : Thread nD τ).loc r) :=
  (keep02 (W2 m ρ c) r fun hm => h (List.mem_append_left _ hm)).trans
    (W2_launch m ρ c r fun hm => h (List.mem_append_right _ hm))

theorem W3_v5 (c : Dev nD) : W3 m ρ c (Proc.devRef .tc main_v5) = Spec.takeRows (x0 m c) (src m c) :=
  (s02_v5 (W2 m ρ c)).trans (congrArg₂ Spec.takeRows (W2_v4 m ρ c) (W2_v1 m ρ c))
theorem W3_v4 (c : Dev nD) : W3 m ρ c (Proc.devRef .tc main_v4) = x0 m c :=
  (keep02 (W2 m ρ c) main_v4 (by decide)).trans (W2_v4 m ρ c)
theorem W3_v1 (c : Dev nD) : W3 m ρ c (Proc.devRef .tc main_v1) = src m c :=
  (keep02 (W2 m ρ c) main_v1 (by decide)).trans (W2_v1 m ρ c)
theorem W3_v3 (c : Dev nD) : W3 m ρ c (Proc.devRef .tc main_v3) = dst m c :=
  (keep02 (W2 m ρ c) main_v3 (by decide)).trans (W2_v3 m ρ c)

/-! ### At the first message kernel's entry -/

theorem W4_launch (c : Dev nD) (r : Ref sig .tc) (h : r ∉ wr03 ++ (wr02 ++ (wr01 ++ wr0))) :
    W4 m ρ c (Proc.devRef .tc r) = m ((c : Thread nD τ).loc r) :=
  (keep03 (W3 m ρ c) r fun hm => h (List.mem_append_left _ hm)).trans
    (W3_launch m ρ c r fun hm => h (List.mem_append_right _ hm))

theorem W4_v7 (c : Dev nD) : W4 m ρ c (Proc.devRef .tc main_v7) = Spec.waT (a4 m c) :=
  (s03_v7 (W3 m ρ c)).trans (congrArg Spec.waT (W3_launch m ρ c main_arg4 (by decide)))
theorem W4_v9 (c : Dev nD) : W4 m ρ c (Proc.devRef .tc main_v9) = Spec.wbT (a4 m c) :=
  (s03_v9 (W3 m ρ c)).trans (congrArg Spec.wbT (W3_launch m ρ c main_arg4 (by decide)))
theorem W4_v10 (c : Dev nD) : W4 m ρ c (Proc.devRef .tc main_v10) = Spec.row1 (a5 m c) :=
  (s03_v10 (W3 m ρ c)).trans (congrArg Spec.row1 (W3_launch m ρ c main_arg5 (by decide)))
theorem W4_v5 (c : Dev nD) : W4 m ρ c (Proc.devRef .tc main_v5) = Spec.takeRows (x0 m c) (src m c) :=
  (keep03 (W3 m ρ c) main_v5 (by decide)).trans (W3_v5 m ρ c)
theorem W4_v4 (c : Dev nD) : W4 m ρ c (Proc.devRef .tc main_v4) = x0 m c :=
  (keep03 (W3 m ρ c) main_v4 (by decide)).trans (W3_v4 m ρ c)
theorem W4_v1 (c : Dev nD) : W4 m ρ c (Proc.devRef .tc main_v1) = src m c :=
  (keep03 (W3 m ρ c) main_v1 (by decide)).trans (W3_v1 m ρ c)
theorem W4_v3 (c : Dev nD) : W4 m ρ c (Proc.devRef .tc main_v3) = dst m c :=
  (keep03 (W3 m ρ c) main_v3 (by decide)).trans (W3_v3 m ρ c)
theorem W4_arg2 (c : Dev nD) : W4 m ρ c (Proc.devRef .tc main_arg2) = a2 m c := W4_launch m ρ c main_arg2 (by decide)

/-! ### At the first message kernel's exit -/

/-- The arrays the first message kernel's windows sit on. -/
abbrev arr0 : List (Ref sig .tc) := List.ofFn (Pipeline.arrRef spec0)

theorem W5_launch (c : Dev nD) (r : Ref sig .tc) (h : r ∉ arr0 ++ (wr03 ++ (wr02 ++ (wr01 ++ wr0)))) :
    W5 m ρ c (Proc.devRef .tc r) = m ((c : Thread nD τ).loc r) :=
  (W5_of_ne m ρ c r fun w e => h (List.mem_append_left _ (List.mem_ofFn.mpr ⟨w, e⟩))).trans
    (W4_launch m ρ c r fun hm => h (List.mem_append_right _ hm))

theorem W5_v11 (c : Dev nD) : W5 m ρ c (Proc.devRef .tc main_v11) = msg m c (x0 m c) (a4 m c) (a5 m c) :=
  (W5_arr m ρ c 5).trans ((RegionEdge0.final (V4 m ρ) c).trans
    (edgeFn_congr (W4_v5 m ρ c) (W4_arg2 m ρ c) (W4_v7 m ρ c) (W4_v9 m ρ c) (W4_v10 m ρ c)))
theorem W5_v4 (c : Dev nD) : W5 m ρ c (Proc.devRef .tc main_v4) = x0 m c :=
  (W5_of_ne m ρ c main_v4 (by decide)).trans (W4_v4 m ρ c)
theorem W5_v1 (c : Dev nD) : W5 m ρ c (Proc.devRef .tc main_v1) = src m c :=
  (W5_of_ne m ρ c main_v1 (by decide)).trans (W4_v1 m ρ c)
theorem W5_v3 (c : Dev nD) : W5 m ρ c (Proc.devRef .tc main_v3) = dst m c :=
  (W5_of_ne m ρ c main_v3 (by decide)).trans (W4_v3 m ρ c)
/-- The edge attributes are one of the kernel's input windows: an input window's array ends as entered. -/
theorem W5_arg2 (c : Dev nD) : W5 m ρ c (Proc.devRef .tc main_arg2) = a2 m c :=
  ((W5_arr m ρ c 1).trans (((dat0 (V4 m ρ) c).arrAt_in 1 rfl _).trans (A_eq0 (V4 m ρ) c 1))).trans (W4_arg2 m ρ c)

/-! ### At the first node update's entry -/

theorem W6_launch (c : Dev nD) (r : Ref sig .tc) (h : r ∉ wr1 ++ (arr0 ++ (wr03 ++ (wr02 ++ (wr01 ++ wr0))))) :
    W6 m ρ c (Proc.devRef .tc r) = m ((c : Thread nD τ).loc r) :=
  (keep1 (W5 m ρ c) r fun hm => h (List.mem_append_left _ hm)).trans
    (W5_launch m ρ c r fun hm => h (List.mem_append_right _ hm))

theorem W6_v14 (c : Dev nD) :
    W6 m ρ c (Proc.devRef .tc main_v14) = Spec.aggOf (dst m c) (msg m c (x0 m c) (a4 m c) (a5 m c)) :=
  (s1_v14 (W5 m ρ c)).trans (congrArg₂ Spec.aggOf (W5_v3 m ρ c) (W5_v11 m ρ c))
theorem W6_v15 (c : Dev nD) : W6 m ρ c (Proc.devRef .tc main_v15) = Spec.wuT (a6 m c) :=
  (s1_v15 (W5 m ρ c)).trans (congrArg Spec.wuT (W5_launch m ρ c main_arg6 (by decide)))
theorem W6_v16 (c : Dev nD) : W6 m ρ c (Proc.devRef .tc main_v16) = Spec.row1 (a7 m c) :=
  (s1_v16 (W5 m ρ c)).trans (congrArg Spec.row1 (W5_launch m ρ c main_arg7 (by decide)))
theorem W6_v4 (c : Dev nD) : W6 m ρ c (Proc.devRef .tc main_v4) = x0 m c :=
  (keep1 (W5 m ρ c) main_v4 (by decide)).trans (W5_v4 m ρ c)
theorem W6_v1 (c : Dev nD) : W6 m ρ c (Proc.devRef .tc main_v1) = src m c :=
  (keep1 (W5 m ρ c) main_v1 (by decide)).trans (W5_v1 m ρ c)
theorem W6_v3 (c : Dev nD) : W6 m ρ c (Proc.devRef .tc main_v3) = dst m c :=
  (keep1 (W5 m ρ c) main_v3 (by decide)).trans (W5_v3 m ρ c)
theorem W6_arg2 (c : Dev nD) : W6 m ρ c (Proc.devRef .tc main_arg2) = a2 m c :=
  (keep1 (W5 m ρ c) main_arg2 (by decide)).trans (W5_arg2 m ρ c)

/-! ### At the first node update's exit -/

abbrev arr1 : List (Ref sig .tc) := List.ofFn (Pipeline.arrRef spec1)

theorem W7_launch (c : Dev nD) (r : Ref sig .tc)
    (h : r ∉ arr1 ++ (wr1 ++ (arr0 ++ (wr03 ++ (wr02 ++ (wr01 ++ wr0)))))) :
    W7 m ρ c (Proc.devRef .tc r) = m ((c : Thread nD τ).loc r) :=
  (W7_of_ne m ρ c r fun w e => h (List.mem_append_left _ (List.mem_ofFn.mpr ⟨w, e⟩))).trans
    (W6_launch m ρ c r fun hm => h (List.mem_append_right _ hm))

theorem W7_v17 (c : Dev nD) : W7 m ρ c (Proc.devRef .tc main_v17) = x1 m c :=
  (W7_arr m ρ c 4).trans ((RegionNode1.final (V6 m ρ) c).trans
    (nodeFn_congr (W6_v4 m ρ c) (W6_v14 m ρ c) (W6_v15 m ρ c) (W6_v16 m ρ c)))
theorem W7_v1 (c : Dev nD) : W7 m ρ c (Proc.devRef .tc main_v1) = src m c :=
  (W7_of_ne m ρ c main_v1 (by decide)).trans (W6_v1 m ρ c)
theorem W7_v3 (c : Dev nD) : W7 m ρ c (Proc.devRef .tc main_v3) = dst m c :=
  (W7_of_ne m ρ c main_v3 (by decide)).trans (W6_v3 m ρ c)
theorem W7_arg2 (c : Dev nD) : W7 m ρ c (Proc.devRef .tc main_arg2) = a2 m c :=
  (W7_of_ne m ρ c main_arg2 (by decide)).trans (W6_arg2 m ρ c)

/-! ### After the second gather at the source indices -/

theorem W8_launch (c : Dev nD) (r : Ref sig .tc)
    (h : r ∉ wr2 ++ (arr1 ++ (wr1 ++ (arr0 ++ (wr03 ++ (wr02 ++ (wr01 ++ wr0))))))) :
    W8 m ρ c (Proc.devRef .tc r) = m ((c : Thread nD τ).loc r) :=
  (keep2 (W7 m ρ c) r fun hm => h (List.mem_append_left _ hm)).trans
    (W7_launch m ρ c r fun hm => h (List.mem_append_right _ hm))

theorem W8_v18 (c : Dev nD) : W8 m ρ c (Proc.devRef .tc main_v18) = Spec.takeRows (x1 m c) (src m c) :=
  (s2_v18 (W7 m ρ c)).trans (congrArg₂ Spec.takeRows (W7_v17 m ρ c) (W7_v1 m ρ c))
theorem W8_v17 (c : Dev nD) : W8 m ρ c (Proc.devRef .tc main_v17) = x1 m c :=
  (keep2 (W7 m ρ c) main_v17 (by decide)).trans (W7_v17 m ρ c)
theorem W8_v3 (c : Dev nD) : W8 m ρ c (Proc.devRef .tc main_v3) = dst m c :=
  (keep2 (W7 m ρ c) main_v3 (by decide)).trans (W7_v3 m ρ c)
theorem W8_arg2 (c : Dev nD) : W8 m ρ c (Proc.devRef .tc main_arg2) = a2 m c :=
  (keep2 (W7 m ρ c) main_arg2 (by decide)).trans (W7_arg2 m ρ c)

/-! ### At the second message kernel's entry -/

theorem W9_launch (c : Dev nD) (r : Ref sig .tc)
    (h : r ∉ wr21 ++ (wr2 ++ (arr1 ++ (wr1 ++ (arr0 ++ (wr03 ++ (wr02 ++ (wr01 ++ wr0)))))))) :
    W9 m ρ c (Proc.devRef .tc r) = m ((c : Thread nD τ).loc r) :=
  (keep21 (W8 m ρ c) r fun hm => h (List.mem_append_left _ hm)).trans
    (W8_launch m ρ c r fun hm => h (List.mem_append_right _ hm))

theorem W9_v20 (c : Dev nD) : W9 m ρ c (Proc.devRef .tc main_v20) = Spec.waT (a8 m c) :=
  (s21_v20 (W8 m ρ c)).trans (congrArg Spec.waT (W8_launch m ρ c main_arg8 (by decide)))
theorem W9_v22 (c : Dev nD) : W9 m ρ c (Proc.devRef .tc main_v22) = Spec.wbT (a8 m c) :=
  (s21_v22 (W8 m ρ c)).trans (congrArg Spec.wbT (W8_launch m ρ c main_arg8 (by decide)))
theorem W9_v23 (c : Dev nD) : W9 m ρ c (Proc.devRef .tc main_v23) = Spec.row1 (a9 m c) :=
  (s21_v23 (W8 m ρ c)).trans (congrArg Spec.row1 (W8_launch m ρ c main_arg9 (by decide)))
theorem W9_v18 (c : Dev nD) : W9 m ρ c (Proc.devRef .tc main_v18) = Spec.takeRows (x1 m c) (src m c) :=
  (keep21 (W8 m ρ c) main_v18 (by decide)).trans (W8_v18 m ρ c)
theorem W9_v17 (c : Dev nD) : W9 m ρ c (Proc.devRef .tc main_v17) = x1 m c :=
  (keep21 (W8 m ρ c) main_v17 (by decide)).trans (W8_v17 m ρ c)
theorem W9_v3 (c : Dev nD) : W9 m ρ c (Proc.devRef .tc main_v3) = dst m c :=
  (keep21 (W8 m ρ c) main_v3 (by decide)).trans (W8_v3 m ρ c)
theorem W9_arg2 (c : Dev nD) : W9 m ρ c (Proc.devRef .tc main_arg2) = a2 m c :=
  (keep21 (W8 m ρ c) main_arg2 (by decide)).trans (W8_arg2 m ρ c)

/-! ### At the second message kernel's exit -/

abbrev arr2 : List (Ref sig .tc) := List.ofFn (Pipeline.arrRef spec2)

theorem W10_launch (c : Dev nD) (r : Ref sig .tc)
    (h : r ∉ arr2 ++ (wr21 ++ (wr2 ++ (arr1 ++ (wr1 ++ (arr0 ++ (wr03 ++ (wr02 ++ (wr01 ++ wr0))))))))) :
    W10 m ρ c (Proc.devRef .tc r) = m ((c : Thread nD τ).loc r) :=
  (W10_of_ne m ρ c r fun w e => h (List.mem_append_left _ (List.mem_ofFn.mpr ⟨w, e⟩))).trans
    (W9_launch m ρ c r fun hm => h (List.mem_append_right _ hm))

theorem W10_v24 (c : Dev nD) : W10 m ρ c (Proc.devRef .tc main_v24) = msg m c (x1 m c) (a8 m c) (a9 m c) :=
  (W10_arr m ρ c 5).trans ((RegionEdge2.final (V9 m ρ) c).trans
    (edgeFn_congr (W9_v18 m ρ c) (W9_arg2 m ρ c) (W9_v20 m ρ c) (W9_v22 m ρ c) (W9_v23 m ρ c)))
theorem W10_v17 (c : Dev nD) : W10 m ρ c (Proc.devRef .tc main_v17) = x1 m c :=
  (W10_of_ne m ρ c main_v17 (by decide)).trans (W9_v17 m ρ c)
theorem W10_v3 (c : Dev nD) : W10 m ρ c (Proc.devRef .tc main_v3) = dst m c :=
  (W10_of_ne m ρ c main_v3 (by decide)).trans (W9_v3 m ρ c)

/-! ### At the second node update's entry -/

theorem W11_v27 (c : Dev nD) :
    W11 m ρ c (Proc.devRef .tc main_v27) = Spec.aggOf (dst m c) (msg m c (x1 m c) (a8 m c) (a9 m c)) :=
  (s3_v27 (W10 m ρ c)).trans (congrArg₂ Spec.aggOf (W10_v3 m ρ c) (W10_v24 m ρ c))
theorem W11_v28 (c : Dev nD) : W11 m ρ c (Proc.devRef .tc main_v28) = Spec.wuT (a10 m c) :=
  (s3_v28 (W10 m ρ c)).trans (congrArg Spec.wuT (W10_launch m ρ c main_arg10 (by decide)))
theorem W11_v29 (c : Dev nD) : W11 m ρ c (Proc.devRef .tc main_v29) = Spec.row1 (a11 m c) :=
  (s3_v29 (W10 m ρ c)).trans (congrArg Spec.row1 (W10_launch m ρ c main_arg11 (by decide)))
theorem W11_v17 (c : Dev nD) : W11 m ρ c (Proc.devRef .tc main_v17) = x1 m c :=
  (keep3 (W10 m ρ c) main_v17 (by decide)).trans (W10_v17 m ρ c)

/-! ### At the second node update's exit, and the mean -/

theorem W12_v30 (c : Dev nD) : W12 m ρ c (Proc.devRef .tc main_v30) = x2 m c :=
  (W12_arr m ρ c 4).trans ((RegionNode3.final (V11 m ρ) c).trans
    (nodeFn_congr (W11_v17 m ρ c) (W11_v27 m ρ c) (W11_v28 m ρ c) (W11_v29 m ρ c)))

theorem W13_v33 (c : Dev nD) : W13 m ρ c (Proc.devRef .tc main_v33) = Spec.meanRows (x2 m c) :=
  (s4_v33 (W12 m ρ c)).trans (congrArg Spec.meanRows (W12_v30 m ρ c))

/-- The result buffer's contents at the last boundary are the kernel side's function of the arguments. -/
theorem W13_result (c : Dev nD) :
    W13 m ρ c (Proc.devRef .tc main_v33) = Cert.KernelIdeal.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) :=
  (W13_v33 m ρ c).trans rfl

end Cert.KernelIdeal.Chain

end
-- ==== Proof.RefSide.lean ====
/-
  The reference's result term is `Spec.result` of the twelve argument arrays: the generated run states the result
  as one composed term of the arguments, and the round functions are that term's pieces.
-/
import proofs.«401947_j16612933501305_1_alg».proof.Proof.Gen.ReferenceIdeal.Run
import proofs.«401947_j16612933501305_1_alg».proof.Proof.Spec

set_option maxRecDepth 16384

noncomputable section

namespace Cert.ReferenceIdeal.RefSide

open Cert.ReferenceIdeal Idealize.ShloMosaic Idealize.ShloMosaic.TcCoe Idealize.SL.Sem

variable {F : FTy → Type} [FloatOps F]

theorem res_eq (m : (ℓ : Loc nD τ sig) → Buf (Elt F) ℓ) (c : Dev nD) :
    Cert.ReferenceIdeal.Value.res_main_v61 m c = Cert.ReferenceIdeal.Spec.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) := by
  unfold Cert.ReferenceIdeal.Value.res_main_v61 Cert.ReferenceIdeal.Spec.result Cert.ReferenceIdeal.Spec.meanRows Cert.ReferenceIdeal.Spec.round Cert.ReferenceIdeal.Spec.updOf Cert.ReferenceIdeal.Spec.aggOf Cert.ReferenceIdeal.Spec.msgOf Cert.ReferenceIdeal.Spec.gatherRows Cert.ReferenceIdeal.Spec.gatherEmb Cert.ReferenceIdeal.Spec.wrapIds Cert.ReferenceIdeal.Spec.wrapSrc Cert.ReferenceIdeal.Spec.srcOf Cert.ReferenceIdeal.Spec.dstOf
  rfl

end Cert.ReferenceIdeal.RefSide

end
-- ==== Proof.PreDecode.lean ====
/-
  The precondition read at an element: every node-type index lies in 0 … 99 and every edge's source index in
  0 … 99999 (as signed 32-bit words).
-/
import proofs.«401947_j16612933501305_1_alg».proof.Defs
import proofs.«401947_j16612933501305_1_alg».proof.Proof.Gen.Pre_finite_inputs
import proofs.«401947_j16612933501305_1_alg».proof.Proof.Spec
import Idealize.ShloMosaic.Lib.ReduceAll

set_option maxRecDepth 16384

noncomputable section

namespace Cert.PreDecode

open Idealize.ShloMosaic Idealize.ShloMosaic.TcCoe Idealize.SL.Sem

variable [Cert.KernelIdeal.Facts] [Cert.Pre_finite_inputs.Facts]
variable (m : (ℓ : Loc Cert.KernelIdeal.nD Cert.KernelIdeal.τ Cert.KernelIdeal.sig) → Buf (Elt Ideal) ℓ)

/-- The precondition's last two conjuncts: the two range masks, each reduced by "and" over all its elements, are true. -/
theorem pre_tail (h : Cert.Pre_KernelIdeal m) (c : Dev Cert.KernelIdeal.nD) :
    (∀ i : Cert.KernelIdeal.S100000.Idx,
      IntOp.andi (IntOp.cmpi .sge (m ((c.tc : Thread Cert.KernelIdeal.nD Cert.KernelIdeal.τ).loc Cert.KernelIdeal.main_arg0) i) 0#32)
        (IntOp.cmpi .slt (m ((c.tc : Thread Cert.KernelIdeal.nD Cert.KernelIdeal.τ).loc Cert.KernelIdeal.main_arg0) i) 100#32) = 1#1)
    ∧ (∀ e : Cert.KernelIdeal.S1600000.Idx,
      IntOp.andi (IntOp.cmpi .sge (Cert.KernelIdeal.Spec.srcOf (m ((c.tc : Thread Cert.KernelIdeal.nD Cert.KernelIdeal.τ).loc Cert.KernelIdeal.main_arg1)) e) 0#32)
        (IntOp.cmpi .slt (Cert.KernelIdeal.Spec.srcOf (m ((c.tc : Thread Cert.KernelIdeal.nD Cert.KernelIdeal.τ).loc Cert.KernelIdeal.main_arg1)) e) 100000#32) = 1#1) := by
  -- the scalar shape has one index
  haveI : Subsingleton Cert.Pre_finite_inputs.S_.Idx := ⟨fun a b => funext fun d => d.elim0⟩
  have e := congrFun (h c) ValueIdx.ix0
  unfold Cert.Pre_finite_inputs.fn Cert.Pre_finite_inputs.fn_part1 Cert.Pre_finite_inputs.fn_part2
    Cert.Pre_finite_inputs.fn_part3 at e
  dsimp only at e
  obtain ⟨e1, hsrc⟩ := IntOp.andi_eq_one.1 e
  obtain ⟨-, hids⟩ := IntOp.andi_eq_one.1 e1
  exact ⟨fun i => Host.reduce_andi_all _ _ _ _ _ hids i, fun e => Host.reduce_andi_all _ _ _ _ _ hsrc e⟩

/-- Every node-type index is a row of the 100-row table. -/
theorem ids_range (h : Cert.Pre_KernelIdeal m) (c : Dev Cert.KernelIdeal.nD) (i : Cert.KernelIdeal.S100000.Idx) :
    IntOp.cmpi .sge (m ((c.tc : Thread Cert.KernelIdeal.nD Cert.KernelIdeal.τ).loc Cert.KernelIdeal.main_arg0) i) 0#32 = 1#1
    ∧ IntOp.cmpi .slt (m ((c.tc : Thread Cert.KernelIdeal.nD Cert.KernelIdeal.τ).loc Cert.KernelIdeal.main_arg0) i) 100#32 = 1#1 := by
  exact IntOp.andi_eq_one.1 ((pre_tail m h c).1 i)

/-- Every edge's source index is one of the 100000 nodes. -/
theorem src_range (h : Cert.Pre_KernelIdeal m) (c : Dev Cert.KernelIdeal.nD) (e : Cert.KernelIdeal.S1600000.Idx) :
    IntOp.cmpi .sge (Cert.KernelIdeal.Spec.srcOf (m ((c.tc : Thread Cert.KernelIdeal.nD Cert.KernelIdeal.τ).loc Cert.KernelIdeal.main_arg1)) e) 0#32 = 1#1
    ∧ IntOp.cmpi .slt (Cert.KernelIdeal.Spec.srcOf (m ((c.tc : Thread Cert.KernelIdeal.nD Cert.KernelIdeal.τ).loc Cert.KernelIdeal.main_arg1)) e) 100000#32 = 1#1 := by
  exact IntOp.andi_eq_one.1 ((pre_tail m h c).2 e)

end Cert.PreDecode

end
-- ==== Proof.Take.lean ====
/-
  Where every index is in range, the kernel side's guarded gather is the plain gather: the range test is true at every
  row, so the fill value is never selected.
-/
import proofs.«401947_j16612933501305_1_alg».proof.Proof.Spec
import Idealize.ShloMosaic.Lib.StableHlo.Predicate

set_option maxRecDepth 16384

noncomputable section

namespace Cert.Take

open Idealize.ShloMosaic

/-! ## Words: a signed word in [0, n) is not negative and is at most n − 1 -/

/-- A word that is at least 0 as a signed number has its top bit clear. -/
theorem toNat_lt_of_sge_zero {w : BitVec 32} (h : IntOp.cmpi .sge w 0#32 = 1#1) : w.toNat < 2 ^ 31 := by
  unfold IntOp.cmpi at h
  rw [StableHlo.Predicate.ofBool_eq_one_iff] at h
  simp only [BitVec.sle, decide_eq_true_eq] at h
  have h0 : (0#32 : BitVec 32).toInt = 0 := by decide
  rw [h0, BitVec.toInt_eq_toNat_cond] at h
  split at h <;> omega

/-- Such a word is not below 0: the wrap's test is false. -/
theorem slt_zero_of_sge_zero {w : BitVec 32} (h : IntOp.cmpi .sge w 0#32 = 1#1) : IntOp.cmpi .slt w 0#32 = 0#1 := by
  have hw := toNat_lt_of_sge_zero h
  apply ValueIdx.eq_zero_of_ne_one
  intro hc
  have := (StableHlo.Predicate.slt_iff_toNat hw (by decide)).1 hc
  have h0 : (0#32 : BitVec 32).toNat = 0 := rfl
  omega

/-- A word in [0, n) is at most n − 1 (n a small positive literal). -/
theorem sle_pred_of_range {w : BitVec 32} (n : Nat) (hn : n < 2 ^ 31) (hpos : 0 < n) (h0 : IntOp.cmpi .sge w 0#32 = 1#1)
    (h1 : IntOp.cmpi .slt w (BitVec.ofNat 32 n) = 1#1) : IntOp.cmpi .sle w (BitVec.ofNat 32 (n - 1)) = 1#1 := by
  have hw := toNat_lt_of_sge_zero h0
  have en : (BitVec.ofNat 32 n).toNat = n := by rw [BitVec.toNat_ofNat]; exact Nat.mod_eq_of_lt (by omega)
  have en1 : (BitVec.ofNat 32 (n - 1)).toNat = n - 1 := by rw [BitVec.toNat_ofNat]; exact Nat.mod_eq_of_lt (by omega)
  have hlt := (StableHlo.Predicate.slt_iff_toNat hw (by omega)).1 h1
  exact (StableHlo.Predicate.sle_iff_toNat hw (by omega)).2 (by omega)

/-- The range test of a word in [0, n): both of its comparisons are true. -/
theorem range_test {w : BitVec 32} (n : Nat) (hn : n < 2 ^ 31) (hpos : 0 < n) (h0 : IntOp.cmpi .sge w 0#32 = 1#1)
    (h1 : IntOp.cmpi .slt w (BitVec.ofNat 32 n) = 1#1) :
    IntOp.andi (IntOp.cmpi .sge w 0#32) (IntOp.cmpi .sle w (BitVec.ofNat 32 (n - 1))) = 1#1 := by
  rw [h0, sle_pred_of_range n hn hpos h0 h1]; decide

/-! ## A reduction by "and" of a mask that is true everywhere is true -/

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x hx _

variable {F : FTy → Type} [FloatOps F] [Cert.KernelIdeal.Facts] [Cert.ReferenceIdeal.Facts]

/-! ## The table gather -/

/-- No index is negative, so the wrap leaves every index as it is. -/
theorem wrapIds_eq (ids : IVec Cert.KernelIdeal.S100000 32) (h : ∀ i, IntOp.cmpi .sge (ids i) 0#32 = 1#1) :
    Cert.KernelIdeal.Spec.wrapIds ids = ids := by
  funext i
  show Scalar.select (IntOp.cmpi .slt (ids i) 0#32) _ (ids i) = ids i
  rw [slt_zero_of_sge_zero (h i), ValueIdx.select_zero]

/-- The range test is true at every node. -/
theorem idsOk_eq_one (ids : IVec Cert.KernelIdeal.S100000 32)
    (h : ∀ i, IntOp.cmpi .sge (ids i) 0#32 = 1#1 ∧ IntOp.cmpi .slt (ids i) 100#32 = 1#1) (i : Cert.KernelIdeal.S100000.Idx) :
    Cert.KernelIdeal.Spec.idsOk ids i = 1#1 := by
  unfold Cert.KernelIdeal.Spec.idsOk
  refine reduce_andi_ones _ _ _ _ _ rfl fun j => ?_
  unfold Cert.KernelIdeal.Spec.idsCol
  rw [wrapIds_eq ids fun i => (h i).1]
  exact range_test 100 (by decide) (by decide) (h _).1 (h _).2

/-- x₀: the guarded gather of the table's rows is the plain gather when every index is one of the rows 0 … 99. -/
theorem takeEmb_eq (emb : FVec F Cert.KernelIdeal.S100x64 .f32) (ids : IVec Cert.KernelIdeal.S100000 32)
    (h : ∀ i, IntOp.cmpi .sge (ids i) 0#32 = 1#1 ∧ IntOp.cmpi .slt (ids i) 100#32 = 1#1) :
    Cert.KernelIdeal.Spec.takeEmb emb ids = Cert.ReferenceIdeal.Spec.gatherEmb emb ids := by
  unfold Cert.KernelIdeal.Spec.takeEmb Cert.ReferenceIdeal.Spec.gatherEmb
  funext j
  rw [ValueIdx.select_apply]
  rw [show broadcastInDim Cert.KernelIdeal.S100000x64 ![0] Cert.KernelIdeal.Facts₀.bcast_S100000_S100000x64_0
      (Cert.KernelIdeal.Spec.idsOk ids) j = 1#1 from idsOk_eq_one ids h _, ValueIdx.select_one]
  rfl

/-! ## The node gather -/

/-- No source index is negative, so the wrap leaves every one as it is. -/
theorem wrapSrc_eq (s : IVec Cert.KernelIdeal.S1600000 32) (h : ∀ e, IntOp.cmpi .sge (s e) 0#32 = 1#1) :
    Cert.KernelIdeal.Spec.wrapSrc s = s := by
  funext e
  show Scalar.select (IntOp.cmpi .slt (s e) 0#32) _ (s e) = s e
  rw [slt_zero_of_sge_zero (h e), ValueIdx.select_zero]

/-- The range test is true at every edge. -/
theorem srcOk_eq_one (s : IVec Cert.KernelIdeal.S1600000 32)
    (h : ∀ e, IntOp.cmpi .sge (s e) 0#32 = 1#1 ∧ IntOp.cmpi .slt (s e) 100000#32 = 1#1) (e : Cert.KernelIdeal.S1600000.Idx) :
    Cert.KernelIdeal.Spec.srcOk s e = 1#1 := by
  unfold Cert.KernelIdeal.Spec.srcOk
  refine reduce_andi_ones _ _ _ _ _ rfl fun j => ?_
  unfold Cert.KernelIdeal.Spec.srcCol
  rw [wrapSrc_eq s fun e => (h e).1]
  exact range_test 100000 (by decide) (by decide) (h _).1 (h _).2

/-- x[src]: the guarded gather of the nodes' rows is the plain gather when every index is one of the nodes 0 … 99999. -/
theorem takeRows_eq (x : FVec F Cert.KernelIdeal.S100000x64 .f32) (s : IVec Cert.KernelIdeal.S1600000 32)
    (h : ∀ e, IntOp.cmpi .sge (s e) 0#32 = 1#1 ∧ IntOp.cmpi .slt (s e) 100000#32 = 1#1) :
    Cert.KernelIdeal.Spec.takeRows x s = Cert.ReferenceIdeal.Spec.gatherRows x s := by
  unfold Cert.KernelIdeal.Spec.takeRows Cert.ReferenceIdeal.Spec.gatherRows
  funext j
  rw [ValueIdx.select_apply]
  rw [show broadcastInDim Cert.KernelIdeal.S1600000x64 ![0] Cert.KernelIdeal.Facts₀.bcast_S1600000_S1600000x64_0
      (Cert.KernelIdeal.Spec.srcOk s) j = 1#1 from srcOk_eq_one s h _, ValueIdx.select_one]
  rfl

end Cert.Take

end
-- ==== Proof.EdgeMath.lean ====
/-
  The messages, both ways. The kernel multiplies x[src] by W[:, :64]ᵀ and the edge attributes by W[:, 64:]ᵀ and adds
  the two products; the reference multiplies the concatenation [x[src] ; ea] by Wᵀ. A sum over the 68 columns splits
  into the sum over the first 64 and the sum over the last 4, so at every edge and output column the two agree; the
  bias and the relu are the same on both sides.
-/
import proofs.«401947_j16612933501305_1_alg».proof.Proof.Spec
import Idealize.ShloMosaic.PureOps.Ideal.Laws
import Idealize.ShloMosaic.Lib.Pipeline.Value
import Idealize.ShloMosaic.Lib.ValueLayout

set_option maxRecDepth 16384

noncomputable section

namespace Cert.EdgeMath

open Idealize.ShloMosaic Idealize.ShloMosaic.ValueIdx

variable [Cert.KernelIdeal.Facts] [Cert.ReferenceIdeal.Facts]

/-! ## The two block products read at an index -/

theorem lhsA_0 (i : Cert.KernelIdeal.S8000x64.Idx) (q : Cert.KernelIdeal.dot_S8000x64_S64x64_S8000x64_1_0_0_1_n_n.contr.Idx) :
    (Cert.KernelIdeal.dot_S8000x64_S64x64_S8000x64_1_0_0_1_n_n.lhsIdx i q 0).val = (i 0).val := by
  unfold DotDims.lhsIdx
  rw [dif_neg (show ¬(0 : Fin Cert.KernelIdeal.S8000x64.rank) ∈ Cert.KernelIdeal.dot_S8000x64_S64x64_S8000x64_1_0_0_1_n_n.lhsBatch by decide), dif_pos (show (0 : Fin Cert.KernelIdeal.S8000x64.rank) ∈ Cert.KernelIdeal.dot_S8000x64_S64x64_S8000x64_1_0_0_1_n_n.lhsNonContracting by decide)]
  rfl
theorem lhsA_1 (i : Cert.KernelIdeal.S8000x64.Idx) (q : Cert.KernelIdeal.dot_S8000x64_S64x64_S8000x64_1_0_0_1_n_n.contr.Idx) :
    (Cert.KernelIdeal.dot_S8000x64_S64x64_S8000x64_1_0_0_1_n_n.lhsIdx i q 1).val = (q ⟨0, by decide⟩).val :=
  Cert.KernelIdeal.dot_S8000x64_S64x64_S8000x64_1_0_0_1_n_n.lhsIdx_val_of_single rfl i q
theorem rhsA_0 (i : Cert.KernelIdeal.S8000x64.Idx) (q : Cert.KernelIdeal.dot_S8000x64_S64x64_S8000x64_1_0_0_1_n_n.contr.Idx) :
    (Cert.KernelIdeal.dot_S8000x64_S64x64_S8000x64_1_0_0_1_n_n.rhsIdx i q 0).val = (q ⟨0, by decide⟩).val :=
  Cert.KernelIdeal.dot_S8000x64_S64x64_S8000x64_1_0_0_1_n_n.rhsIdx_val_of_single rfl i q
theorem rhsA_1 (i : Cert.KernelIdeal.S8000x64.Idx) (q : Cert.KernelIdeal.dot_S8000x64_S64x64_S8000x64_1_0_0_1_n_n.contr.Idx) :
    (Cert.KernelIdeal.dot_S8000x64_S64x64_S8000x64_1_0_0_1_n_n.rhsIdx i q 1).val = (i 1).val := by
  unfold DotDims.rhsIdx
  rw [dif_neg (show ¬(1 : Fin Cert.KernelIdeal.S64x64.rank) ∈ Cert.KernelIdeal.dot_S8000x64_S64x64_S8000x64_1_0_0_1_n_n.rhsBatch by decide), dif_pos (show (1 : Fin Cert.KernelIdeal.S64x64.rank) ∈ Cert.KernelIdeal.dot_S8000x64_S64x64_S8000x64_1_0_0_1_n_n.rhsNonContracting by decide)]
  rfl

/-- The product of a block of 8000 rows of 64 features with a 64 × 64 matrix, into a zero accumulator, at row p and
    column q: the sum over the 64 features. -/
theorem matmulA_apply (x : FVec Ideal Cert.KernelIdeal.S8000x64 .f32) (w : FVec Ideal Cert.KernelIdeal.S64x64 .f32) (p : Fin 8000) (q : Fin 64) :
    matmul Cert.KernelIdeal.dot_S8000x64_S64x64_S8000x64_1_0_0_1_n_n none x w (constant (F := Ideal) Cert.KernelIdeal.S8000x64 .f32 0x00000000#32) (ix2 p q)
      = ∑ k : Fin 64, x (ix2 p k) * w (ix2 k q) := by
  simp only [matmul]
  rw [Ideal.matmul_constant_zero_apply, ← Equiv.sum_comp (ValueIdx.contrEquiv1 Cert.KernelIdeal.dot_S8000x64_S64x64_S8000x64_1_0_0_1_n_n 64 rfl rfl).symm]
  refine Finset.sum_congr rfl fun k _ => ?_
  have hk := ValueIdx.contrEquiv1_symm_val Cert.KernelIdeal.dot_S8000x64_S64x64_S8000x64_1_0_0_1_n_n 64 rfl rfl k
  have el : Cert.KernelIdeal.dot_S8000x64_S64x64_S8000x64_1_0_0_1_n_n.lhsIdx (ix2 p q) ((ValueIdx.contrEquiv1 Cert.KernelIdeal.dot_S8000x64_S64x64_S8000x64_1_0_0_1_n_n 64 rfl rfl).symm k) = ix2 p k := funext fun a => Fin.ext (by
    match a with
    | ⟨0, _⟩ => exact lhsA_0 _ _
    | ⟨1, _⟩ => exact (lhsA_1 _ _).trans hk)
  have er : Cert.KernelIdeal.dot_S8000x64_S64x64_S8000x64_1_0_0_1_n_n.rhsIdx (ix2 p q) ((ValueIdx.contrEquiv1 Cert.KernelIdeal.dot_S8000x64_S64x64_S8000x64_1_0_0_1_n_n 64 rfl rfl).symm k) = ix2 k q := funext fun a => Fin.ext (by
    match a with
    | ⟨0, _⟩ => exact (rhsA_0 _ _).trans hk
    | ⟨1, _⟩ => exact rhsA_1 _ _)
  rw [el, er]

theorem lhsB_0 (i : Cert.KernelIdeal.S8000x64.Idx) (q : Cert.KernelIdeal.dot_S8000x4_S4x64_S8000x64_1_0_0_1_n_n.contr.Idx) :
    (Cert.KernelIdeal.dot_S8000x4_S4x64_S8000x64_1_0_0_1_n_n.lhsIdx i q 0).val = (i 0).val := by
  unfold DotDims.lhsIdx
  rw [dif_neg (show ¬(0 : Fin Cert.KernelIdeal.S8000x4.rank) ∈ Cert.KernelIdeal.dot_S8000x4_S4x64_S8000x64_1_0_0_1_n_n.lhsBatch by decide), dif_pos (show (0 : Fin Cert.KernelIdeal.S8000x4.rank) ∈ Cert.KernelIdeal.dot_S8000x4_S4x64_S8000x64_1_0_0_1_n_n.lhsNonContracting by decide)]
  rfl
theorem lhsB_1 (i : Cert.KernelIdeal.S8000x64.Idx) (q : Cert.KernelIdeal.dot_S8000x4_S4x64_S8000x64_1_0_0_1_n_n.contr.Idx) :
    (Cert.KernelIdeal.dot_S8000x4_S4x64_S8000x64_1_0_0_1_n_n.lhsIdx i q 1).val = (q ⟨0, by decide⟩).val :=
  Cert.KernelIdeal.dot_S8000x4_S4x64_S8000x64_1_0_0_1_n_n.lhsIdx_val_of_single rfl i q
theorem rhsB_0 (i : Cert.KernelIdeal.S8000x64.Idx) (q : Cert.KernelIdeal.dot_S8000x4_S4x64_S8000x64_1_0_0_1_n_n.contr.Idx) :
    (Cert.KernelIdeal.dot_S8000x4_S4x64_S8000x64_1_0_0_1_n_n.rhsIdx i q 0).val = (q ⟨0, by decide⟩).val :=
  Cert.KernelIdeal.dot_S8000x4_S4x64_S8000x64_1_0_0_1_n_n.rhsIdx_val_of_single rfl i q
theorem rhsB_1 (i : Cert.KernelIdeal.S8000x64.Idx) (q : Cert.KernelIdeal.dot_S8000x4_S4x64_S8000x64_1_0_0_1_n_n.contr.Idx) :
    (Cert.KernelIdeal.dot_S8000x4_S4x64_S8000x64_1_0_0_1_n_n.rhsIdx i q 1).val = (i 1).val := by
  unfold DotDims.rhsIdx
  rw [dif_neg (show ¬(1 : Fin Cert.KernelIdeal.S4x64.rank) ∈ Cert.KernelIdeal.dot_S8000x4_S4x64_S8000x64_1_0_0_1_n_n.rhsBatch by decide), dif_pos (show (1 : Fin Cert.KernelIdeal.S4x64.rank) ∈ Cert.KernelIdeal.dot_S8000x4_S4x64_S8000x64_1_0_0_1_n_n.rhsNonContracting by decide)]
  rfl

/-- The product of a block of 8000 rows of 4 edge attributes with a 4 × 64 matrix, into a zero accumulator, at row p
    and column q: the sum over the 4 attributes. -/
theorem matmulB_apply (x : FVec Ideal Cert.KernelIdeal.S8000x4 .f32) (w : FVec Ideal Cert.KernelIdeal.S4x64 .f32) (p : Fin 8000) (q : Fin 64) :
    matmul Cert.KernelIdeal.dot_S8000x4_S4x64_S8000x64_1_0_0_1_n_n none x w (constant (F := Ideal) Cert.KernelIdeal.S8000x64 .f32 0x00000000#32) (ix2 p q)
      = ∑ k : Fin 4, x (ix2 p k) * w (ix2 k q) := by
  simp only [matmul]
  rw [Ideal.matmul_constant_zero_apply, ← Equiv.sum_comp (ValueIdx.contrEquiv1 Cert.KernelIdeal.dot_S8000x4_S4x64_S8000x64_1_0_0_1_n_n 4 rfl rfl).symm]
  refine Finset.sum_congr rfl fun k _ => ?_
  have hk := ValueIdx.contrEquiv1_symm_val Cert.KernelIdeal.dot_S8000x4_S4x64_S8000x64_1_0_0_1_n_n 4 rfl rfl k
  have el : Cert.KernelIdeal.dot_S8000x4_S4x64_S8000x64_1_0_0_1_n_n.lhsIdx (ix2 p q) ((ValueIdx.contrEquiv1 Cert.KernelIdeal.dot_S8000x4_S4x64_S8000x64_1_0_0_1_n_n 4 rfl rfl).symm k) = ix2 p k := funext fun a => Fin.ext (by
    match a with
    | ⟨0, _⟩ => exact lhsB_0 _ _
    | ⟨1, _⟩ => exact (lhsB_1 _ _).trans hk)
  have er : Cert.KernelIdeal.dot_S8000x4_S4x64_S8000x64_1_0_0_1_n_n.rhsIdx (ix2 p q) ((ValueIdx.contrEquiv1 Cert.KernelIdeal.dot_S8000x4_S4x64_S8000x64_1_0_0_1_n_n 4 rfl rfl).symm k) = ix2 k q := funext fun a => Fin.ext (by
    match a with
    | ⟨0, _⟩ => exact (rhsB_0 _ _).trans hk
    | ⟨1, _⟩ => exact rhsB_1 _ _)
  rw [el, er]

/-! ## The kernel body's value at a row and a column of its block -/

/-- At row p and column q of a block the body's value is the relu of: the row of features against column q of the first
    matrix, plus the row of attributes against column q of the second, plus the bias row at q. -/
theorem pay_apply (x : FVec Ideal Cert.KernelIdeal.S8000x64 .f32) (a : FVec Ideal Cert.KernelIdeal.S8000x4 .f32)
    (wa : FVec Ideal Cert.KernelIdeal.S64x64 .f32) (wb : FVec Ideal Cert.KernelIdeal.S4x64 .f32) (br : FVec Ideal Cert.KernelIdeal.S1x64 .f32)
    (p : Fin 8000) (q : Fin 64) :
    Cert.KernelIdeal.Gen.k0_pay1 (F := Ideal) x a wa wb br (ix2 p q)
      = max ((∑ k : Fin 64, x (ix2 p k) * wa (ix2 k q)) + (∑ k : Fin 4, a (ix2 p k) * wb (ix2 k q)) + br (ix2 (0 : Fin 1) q)) 0 := by
  unfold Cert.KernelIdeal.Gen.k0_pay1
  simp only [shapeCast_self]
  rw [maximumf_apply, addf_apply, addf_apply, broadcast_apply, matmulA_apply, matmulB_apply, broadcastTo_1b_ab_apply]
  exact congrArg (max _) Ideal.ofBits_zero_f32

/-! ## The kernel's operands at an index -/

/-- Row e % 8000 of block e / 8000 is row e. -/
theorem rows_back {n : Nat} (A : (⟨2, ![1600000, n]⟩ : Shape).Idx → EReal) (e : Fin 1600000) (h1 : e.val / 8000 < 200)
    (h2 : e.val % 8000 < 8000) (k : Fin n) :
    Cert.KernelIdeal.Spec.rows8000 A ⟨e.val / 8000, h1⟩ (ix2 ⟨e.val % 8000, h2⟩ k) = A (ix2 e k) := by
  unfold Cert.KernelIdeal.Spec.rows8000
  exact congrArg A (congrArg (fun r => ix2 r k) (Fin.ext (Nat.div_add_mod' e.val 8000)))

/-- W[:, :64] transposed, at (k, q), is W at (q, k). -/
theorem waT_apply (W : FVec Ideal Cert.KernelIdeal.S64x68 .f32) (k : Fin 64) (q : Fin 64) :
    Cert.KernelIdeal.Spec.waT (F := Ideal) W (ix2 k q) = W (ix2 q (⟨k.val, by omega⟩ : Fin 68)) := by
  unfold Cert.KernelIdeal.Spec.waT
  refine (transpose_ix2_apply _ _ k q).trans ?_
  exact slice2_axis1_apply 0 W _ q k _ (Nat.zero_add _).symm

/-- W[:, 64:] transposed, at (k, q), is W at (q, 64 + k). -/
theorem wbT_apply (W : FVec Ideal Cert.KernelIdeal.S64x68 .f32) (k : Fin 4) (q : Fin 64) :
    Cert.KernelIdeal.Spec.wbT (F := Ideal) W (ix2 k q) = W (ix2 q (⟨64 + k.val, by omega⟩ : Fin 68)) := by
  unfold Cert.KernelIdeal.Spec.wbT
  refine (transpose_ix2_apply _ _ k q).trans ?_
  exact slice2_axis1_apply 64 W _ q k _ rfl

/-- The bias as one row, at column q, is the bias at q. -/
theorem row1_apply (b : FVec Ideal Cert.KernelIdeal.S64 .f32) (q : Fin 64) :
    Cert.KernelIdeal.Spec.row1 (F := Ideal) b (ix2 (0 : Fin 1) q) = b (ix1 q) := by
  unfold Cert.KernelIdeal.Spec.row1
  exact shapeCast_a_1a_apply b _ 0 q

/-! ## The message at an edge and a column -/

/-- relu( ∑ₖ x[e,k]·W[q,k] + ∑ₖ ea[e,k]·W[q,64+k] + b[q] ). -/
def msgAt (xg : FVec Ideal Cert.KernelIdeal.S1600000x64 .f32) (ea : FVec Ideal Cert.KernelIdeal.S1600000x4 .f32)
    (W : FVec Ideal Cert.KernelIdeal.S64x68 .f32) (b : FVec Ideal Cert.KernelIdeal.S64 .f32) (e : Fin 1600000) (q : Fin 64) : EReal :=
  max ((∑ k : Fin 64, xg (ix2 e k) * W (ix2 q (⟨k.val, by omega⟩ : Fin 68)))
    + (∑ k : Fin 4, ea (ix2 e k) * W (ix2 q (⟨64 + k.val, by omega⟩ : Fin 68))) + b (ix1 q)) 0

/-- The kernel side at (e, q). -/
theorem kernel_at (xg : FVec Ideal Cert.KernelIdeal.S1600000x64 .f32) (ea : FVec Ideal Cert.KernelIdeal.S1600000x4 .f32)
    (W : FVec Ideal Cert.KernelIdeal.S64x68 .f32) (b : FVec Ideal Cert.KernelIdeal.S64 .f32) (e : Fin 1600000) (q : Fin 64) :
    Cert.KernelIdeal.Spec.edgeFn (F := Ideal) xg ea (Cert.KernelIdeal.Spec.waT W) (Cert.KernelIdeal.Spec.wbT W) (Cert.KernelIdeal.Spec.row1 b) (ix2 e q)
      = msgAt xg ea W b e q := by
  unfold Cert.KernelIdeal.Spec.edgeFn
  have h1 : e.val / 8000 < 200 := by have := e.isLt; omega
  have h2 : e.val % 8000 < 8000 := Nat.mod_lt _ (by decide)
  refine (pay_apply _ _ _ _ _ ⟨e.val % 8000, h2⟩ q).trans ?_
  unfold msgAt
  refine congrArg (max · 0) ?_
  refine congrArg₂ (· + ·) (congrArg₂ (· + ·) ?_ ?_) (row1_apply b q)
  · exact Finset.sum_congr rfl fun k _ => congrArg₂ (· * ·) (rows_back xg e h1 h2 k) (waT_apply W k q)
  · exact Finset.sum_congr rfl fun k _ => congrArg₂ (· * ·) (rows_back ea e h1 h2 k) (wbT_apply W k q)

/-! ## The reference's product read at an index -/

theorem lhsR_0 (i : Cert.ReferenceIdeal.S1600000x64.Idx) (q : Cert.ReferenceIdeal.dot_S1600000x68_S68x64_S1600000x64_1_0_0_1_n_n.contr.Idx) :
    (Cert.ReferenceIdeal.dot_S1600000x68_S68x64_S1600000x64_1_0_0_1_n_n.lhsIdx i q 0).val = (i 0).val := by
  unfold DotDims.lhsIdx
  rw [dif_neg (show ¬(0 : Fin Cert.ReferenceIdeal.S1600000x68.rank) ∈ Cert.ReferenceIdeal.dot_S1600000x68_S68x64_S1600000x64_1_0_0_1_n_n.lhsBatch from List.not_mem_nil), dif_pos (show (0 : Fin Cert.ReferenceIdeal.S1600000x68.rank) ∈ Cert.ReferenceIdeal.dot_S1600000x68_S68x64_S1600000x64_1_0_0_1_n_n.lhsNonContracting from List.mem_singleton.mpr rfl)]
  rfl
theorem lhsR_1 (i : Cert.ReferenceIdeal.S1600000x64.Idx) (q : Cert.ReferenceIdeal.dot_S1600000x68_S68x64_S1600000x64_1_0_0_1_n_n.contr.Idx) :
    (Cert.ReferenceIdeal.dot_S1600000x68_S68x64_S1600000x64_1_0_0_1_n_n.lhsIdx i q 1).val = (q ⟨0, Nat.one_pos⟩).val :=
  Cert.ReferenceIdeal.dot_S1600000x68_S68x64_S1600000x64_1_0_0_1_n_n.lhsIdx_val_of_single rfl i q
theorem rhsR_0 (i : Cert.ReferenceIdeal.S1600000x64.Idx) (q : Cert.ReferenceIdeal.dot_S1600000x68_S68x64_S1600000x64_1_0_0_1_n_n.contr.Idx) :
    (Cert.ReferenceIdeal.dot_S1600000x68_S68x64_S1600000x64_1_0_0_1_n_n.rhsIdx i q 0).val = (q ⟨0, Nat.one_pos⟩).val :=
  Cert.ReferenceIdeal.dot_S1600000x68_S68x64_S1600000x64_1_0_0_1_n_n.rhsIdx_val_of_single rfl i q
theorem rhsR_1 (i : Cert.ReferenceIdeal.S1600000x64.Idx) (q : Cert.ReferenceIdeal.dot_S1600000x68_S68x64_S1600000x64_1_0_0_1_n_n.contr.Idx) :
    (Cert.ReferenceIdeal.dot_S1600000x68_S68x64_S1600000x64_1_0_0_1_n_n.rhsIdx i q 1).val = (i 1).val := by
  unfold DotDims.rhsIdx
  rw [dif_neg (show ¬(1 : Fin Cert.ReferenceIdeal.S68x64.rank) ∈ Cert.ReferenceIdeal.dot_S1600000x68_S68x64_S1600000x64_1_0_0_1_n_n.rhsBatch from List.not_mem_nil), dif_pos (show (1 : Fin Cert.ReferenceIdeal.S68x64.rank) ∈ Cert.ReferenceIdeal.dot_S1600000x68_S68x64_S1600000x64_1_0_0_1_n_n.rhsNonContracting from List.mem_singleton.mpr rfl)]
  rfl

/-- The product of the 1600000 × 68 array with a 68 × 64 matrix at edge e and column q: the sum over the 68 columns. -/
theorem dotR_apply (x : FVec Ideal Cert.ReferenceIdeal.S1600000x68 .f32) (w : FVec Ideal Cert.ReferenceIdeal.S68x64 .f32)
    (e : Fin 1600000) (q : Fin 64) :
    Host.dotGeneral (F := Ideal) Cert.ReferenceIdeal.dot_S1600000x68_S68x64_S1600000x64_1_0_0_1_n_n none x w (ix2 e q) = ∑ k : Fin 68, x (ix2 e k) * w (ix2 k q) := by
  simp only [Host.dotGeneral]
  rw [Ideal.dotGeneral_apply, ← Equiv.sum_comp (ValueIdx.contrEquiv1 Cert.ReferenceIdeal.dot_S1600000x68_S68x64_S1600000x64_1_0_0_1_n_n 68 rfl rfl).symm]
  refine Finset.sum_congr rfl fun k _ => ?_
  have hk := ValueIdx.contrEquiv1_symm_val Cert.ReferenceIdeal.dot_S1600000x68_S68x64_S1600000x64_1_0_0_1_n_n 68 rfl rfl k
  have el : Cert.ReferenceIdeal.dot_S1600000x68_S68x64_S1600000x64_1_0_0_1_n_n.lhsIdx (ix2 e q) ((ValueIdx.contrEquiv1 Cert.ReferenceIdeal.dot_S1600000x68_S68x64_S1600000x64_1_0_0_1_n_n 68 rfl rfl).symm k) = ix2 e k := funext fun a => Fin.ext (by
    match a with
    | ⟨0, _⟩ => exact lhsR_0 _ _
    | ⟨1, _⟩ => exact (lhsR_1 _ _).trans hk)
  have er : Cert.ReferenceIdeal.dot_S1600000x68_S68x64_S1600000x64_1_0_0_1_n_n.rhsIdx (ix2 e q) ((ValueIdx.contrEquiv1 Cert.ReferenceIdeal.dot_S1600000x68_S68x64_S1600000x64_1_0_0_1_n_n 68 rfl rfl).symm k) = ix2 k q := funext fun a => Fin.ext (by
    match a with
    | ⟨0, _⟩ => exact (rhsR_0 _ _).trans hk
    | ⟨1, _⟩ => exact rhsR_1 _ _)
  rw [el, er]

/-! ## The reference's operands at an index -/

/-- The concatenation [x ; ea] at a column below 64 is x there. -/
theorem cat_left (xg : FVec Ideal Cert.ReferenceIdeal.S1600000x64 .f32) (ea : FVec Ideal Cert.ReferenceIdeal.S1600000x4 .f32)
    (e : Fin 1600000) (k : Fin 64) :
    concatenate Cert.ReferenceIdeal.S1600000x68 1 [⟨Cert.ReferenceIdeal.S1600000x64, xg⟩, ⟨Cert.ReferenceIdeal.S1600000x4, ea⟩]
        Cert.ReferenceIdeal.Facts₀.concatenates_S1600000x64_S1600000x4_S1600000x68_d1 (ix2 e (⟨k.val, by omega⟩ : Fin 68))
      = xg (ix2 e k) :=
  concatenate_pair_apply_left (t := Cert.ReferenceIdeal.S1600000x68) 1 xg ea
    Cert.ReferenceIdeal.Facts₀.concatenates_S1600000x64_S1600000x4_S1600000x68_d1 (ix2 e (⟨k.val, by omega⟩ : Fin 68)) rfl (ix2 e k) (fun b => match b with
    | ⟨0, _⟩ => rfl
    | ⟨1, _⟩ => rfl)

/-- The concatenation [x ; ea] at column 64 + k is ea at k. -/
theorem cat_right (xg : FVec Ideal Cert.ReferenceIdeal.S1600000x64 .f32) (ea : FVec Ideal Cert.ReferenceIdeal.S1600000x4 .f32)
    (e : Fin 1600000) (k : Fin 4) :
    concatenate Cert.ReferenceIdeal.S1600000x68 1 [⟨Cert.ReferenceIdeal.S1600000x64, xg⟩, ⟨Cert.ReferenceIdeal.S1600000x4, ea⟩]
        Cert.ReferenceIdeal.Facts₀.concatenates_S1600000x64_S1600000x4_S1600000x68_d1 (ix2 e (⟨64 + k.val, by omega⟩ : Fin 68))
      = ea (ix2 e k) :=
  concatenate_pair_apply_right (t := Cert.ReferenceIdeal.S1600000x68) 1 xg ea
    Cert.ReferenceIdeal.Facts₀.concatenates_S1600000x64_S1600000x4_S1600000x68_d1 (ix2 e (⟨64 + k.val, by omega⟩ : Fin 68)) rfl rfl (ix2 e k)
    (fun b hb => match b, hb with
      | ⟨0, _⟩, _ => rfl
      | ⟨1, _⟩, hb => absurd rfl hb)
    (by show k.val + 64 = 64 + k.val; omega)

/-- W transposed, at (k, q), is W at (q, k). -/
theorem wT_apply (W : FVec Ideal Cert.ReferenceIdeal.S64x68 .f32) (k : Fin 68) (q : Fin 64) :
    transpose Cert.ReferenceIdeal.S68x64 [1, 0] W Cert.ReferenceIdeal.Facts₀.transposes_S64x68_S68x64_1_0 (ix2 k q) = W (ix2 q k) :=
  transpose_ix2_apply W _ k q

/-- The bias spread over the edges, at (e, q), is the bias at q. -/
theorem bias_apply (b : FVec Ideal Cert.ReferenceIdeal.S64 .f32) (e : Fin 1600000) (q : Fin 64) :
    broadcastInDim Cert.ReferenceIdeal.S1600000x64 ![0, 1] Cert.ReferenceIdeal.Facts₀.bcast_S1x64_S1600000x64_0_1
        (broadcastInDim Cert.ReferenceIdeal.S1x64 ![1] Cert.ReferenceIdeal.Facts₀.bcast_S64_S1x64_1 b) (ix2 e q) = b (ix1 q) := by
  refine (broadcastInDim_apply _ Cert.ReferenceIdeal.Facts₀.bcast_S1x64_S1600000x64_0_1 _ (ix2 e q) (ix2 (0 : Fin 1) q) (fun a => match a with
    | ⟨0, _⟩ => by show 0 = if (1 : Nat) = 1 then 0 else e.val; rw [if_pos rfl]
    | ⟨1, _⟩ => by show q.val = if (64 : Nat) = 1 then 0 else q.val; rw [if_neg (by decide)])).trans ?_
  exact broadcastInDim_apply _ Cert.ReferenceIdeal.Facts₀.bcast_S64_S1x64_1 b (ix2 (0 : Fin 1) q) (ix1 q) (fun a => match a with
    | ⟨0, _⟩ => by show q.val = if (64 : Nat) = 1 then 0 else q.val; rw [if_neg (by decide)])

/-- The zero spread over the edges and columns is 0 everywhere. -/
theorem zero_apply (i : Cert.ReferenceIdeal.S1600000x64.Idx) :
    broadcastInDim Cert.ReferenceIdeal.S1600000x64 ![] Cert.ReferenceIdeal.Facts₀.bcast_S_S1600000x64
        (constant (F := Ideal) Cert.ReferenceIdeal.S_ .f32 0x00000000#32) i = 0 := by
  refine (broadcastInDim_apply _ Cert.ReferenceIdeal.Facts₀.bcast_S_S1600000x64 _ i ix0 (fun a => a.elim0)).trans ?_
  exact Ideal.ofBits_zero_f32

/-- The reference side at (e, q): the sum over the 68 columns is the sum over the first 64 plus the sum over the last 4. -/
theorem ref_at (xg : FVec Ideal Cert.KernelIdeal.S1600000x64 .f32) (ea : FVec Ideal Cert.KernelIdeal.S1600000x4 .f32)
    (W : FVec Ideal Cert.KernelIdeal.S64x68 .f32) (b : FVec Ideal Cert.KernelIdeal.S64 .f32) (e : Fin 1600000) (q : Fin 64) :
    Cert.ReferenceIdeal.Spec.msgOf (F := Ideal) xg ea W b (ix2 e q) = msgAt xg ea W b e q := by
  unfold Cert.ReferenceIdeal.Spec.msgOf
  rw [maximumf_apply, addf_apply, dotR_apply, bias_apply, zero_apply]
  unfold msgAt
  refine congrArg (max · 0) (congrArg (· + b (ix1 q)) ?_)
  refine (Fin.sum_univ_add (a := 64) (b := 4) _).trans ?_
  refine congrArg₂ (· + ·) ?_ ?_
  · exact Finset.sum_congr rfl fun k _ => congrArg₂ (· * ·) (cat_left xg ea e k) (wT_apply W _ q)
  · exact Finset.sum_congr rfl fun k _ => congrArg₂ (· * ·) (cat_right xg ea e k) (wT_apply W _ q)

/-! ## The two sides agree -/

theorem edge_eq (xg : FVec Ideal Cert.KernelIdeal.S1600000x64 .f32) (ea : FVec Ideal Cert.KernelIdeal.S1600000x4 .f32)
    (W : FVec Ideal Cert.KernelIdeal.S64x68 .f32) (b : FVec Ideal Cert.KernelIdeal.S64 .f32) :
    Cert.KernelIdeal.Spec.edgeFn (F := Ideal) xg ea (Cert.KernelIdeal.Spec.waT W) (Cert.KernelIdeal.Spec.wbT W) (Cert.KernelIdeal.Spec.row1 b)
      = Cert.ReferenceIdeal.Spec.msgOf xg ea W b := by
  funext i
  obtain ⟨e, q, rfl⟩ : ∃ (e : Fin 1600000) (q : Fin 64), i = ix2 e q := ⟨i 0, i 1, eq_ix2 i⟩
  exact (kernel_at xg ea W b e q).trans (ref_at xg ea W b e q).symm

end Cert.EdgeMath

end
-- ==== Proof.NodeMath.lean ====
/-
  The node update, both ways: relu((x + agg) · Wuᵀ + bu) at every node and output column, the kernel block by block
  through its matrix unit, the reference as one product over all nodes.
-/
import proofs.«401947_j16612933501305_1_alg».proof.Proof.Spec
import Idealize.ShloMosaic.PureOps.Ideal.Laws
import Idealize.ShloMosaic.Lib.Pipeline.Value
import Idealize.ShloMosaic.Lib.ValueLayout

set_option maxRecDepth 16384

noncomputable section

namespace Cert.NodeMath

open Idealize.ShloMosaic Idealize.ShloMosaic.ValueIdx

variable [Cert.KernelIdeal.Facts] [Cert.ReferenceIdeal.Facts]

/-- The value both sides take at node `n` and output column `q`: the update's affine form cut off below at zero. -/
def updAt (x agg : FVec Ideal Cert.KernelIdeal.S100000x64 .f32) (Wu : FVec Ideal Cert.KernelIdeal.S64x64 .f32)
    (bu : FVec Ideal Cert.KernelIdeal.S64 .f32) (n : Fin 100000) (q : Fin 64) : EReal :=
  max ((∑ k : Fin 64, (x (ix2 n k) + agg (ix2 n k)) * Wu (ix2 q k)) + bu (ix1 q)) 0

/-! ## The kernel side: one block of 5000 nodes through the matrix unit -/

section Kernel

open Cert.KernelIdeal Cert.KernelIdeal.Facts₀ Cert.KernelIdeal.Facts

/-- The left operand of the block product is read at the output's row … -/
theorem klhs_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by
      show ¬(0 : Fin 2) ∈ ([] : List (Fin 2)); decide),
    dif_pos (show (0 : Fin S5000x64.rank) ∈ dot_S5000x64_S64x64_S5000x64_1_0_0_1_n_n.lhsNonContracting by
      show (0 : Fin 2) ∈ ([0] : List (Fin 2)); decide)]
  rfl
/-- … and at the contraction's coordinate. -/
theorem klhs_1 (i : S5000x64.Idx) (c : dot_S5000x64_S64x64_S5000x64_1_0_0_1_n_n.contr.Idx) :
    (dot_S5000x64_S64x64_S5000x64_1_0_0_1_n_n.lhsIdx i c 1).val = (c ⟨0, by show 0 < 1; decide⟩).val :=
  dot_S5000x64_S64x64_S5000x64_1_0_0_1_n_n.lhsIdx_val_of_single rfl i c
/-- The right operand is read at the contraction's coordinate … -/
theorem krhs_0 (i : S5000x64.Idx) (c : dot_S5000x64_S64x64_S5000x64_1_0_0_1_n_n.contr.Idx) :
    (dot_S5000x64_S64x64_S5000x64_1_0_0_1_n_n.rhsIdx i c 0).val = (c ⟨0, by show 0 < 1; decide⟩).val :=
  dot_S5000x64_S64x64_S5000x64_1_0_0_1_n_n.rhsIdx_val_of_single rfl i c
/-- … and at the output's column. -/
theorem krhs_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by
      show ¬(1 : Fin 2) ∈ ([] : List (Fin 2)); decide),
    dif_pos (show (1 : Fin S64x64.rank) ∈ dot_S5000x64_S64x64_S5000x64_1_0_0_1_n_n.rhsNonContracting by
      show (1 : Fin 2) ∈ ([1] : List (Fin 2)); decide)]
  rfl

/-- A block product into the zero accumulator, at row `p` and column `q`: the sum over the 64 inner coordinates. -/
theorem kmatmul_apply (a : FVec Ideal S5000x64 .f32) (w : FVec Ideal S64x64 .f32) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun b => Fin.ext (by
    match b with
    | ⟨0, _⟩ => exact klhs_0 _ _
    | ⟨1, _⟩ => exact (klhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun b => Fin.ext (by
    match b with
    | ⟨0, _⟩ => exact (krhs_0 _ _).trans hk
    | ⟨1, _⟩ => exact krhs_1 _ _)
  rw [el, er]

/-- The kernel body's value at row `p`, column `q` of a block, from the block's operands at their indices. -/
theorem pay_apply (v0 v2 : FVec Ideal S5000x64 .f32) (v4 : FVec Ideal S64x64 .f32) (v6 : FVec Ideal S1x64 .f32)
    (p : Fin 5000) (q : Fin 64) :
    Gen.k1_pay1 (F := Ideal) v0 v2 v4 v6 (ix2 p q)
      = max ((∑ k : Fin 64, (v0 (ix2 p k) + v2 (ix2 p k)) * v4 (ix2 k q)) + v6 (ix2 (0 : Fin 1) q)) 0 := by
  unfold Gen.k1_pay1
  simp only [shapeCast_self]
  rw [maximumf_apply, addf_apply, broadcast_apply, kmatmul_apply, broadcastTo_1b_ab_apply]
  simp only [addf_apply]
  exact congrArg (max _) Ideal.ofBits_zero_f32

/-- Row `n % 5000` of block `n / 5000` is row `n` of the whole array. -/
theorem rows5000_apply (A : FVec Ideal S100000x64 .f32) (n : Fin 100000) (k : Fin 64)
    (ht : n.val / 5000 < 20) (hp : n.val % 5000 < 5000) :
    Spec.rows5000 A ⟨n.val / 5000, ht⟩ (ix2 ⟨n.val % 5000, hp⟩ k) = A (ix2 n k) := by
  unfold Spec.rows5000
  exact congrArg (fun r => A (ix2 r k)) (Fin.ext (Nat.div_add_mod' n.val 5000))

/-- The transposed weights at `(k, q)` are the weights at `(q, k)`. -/
theorem wuT_apply (Wu : FVec Ideal S64x64 .f32) (k q : Fin 64) : Spec.wuT Wu (ix2 k q) = Wu (ix2 q k) := by
  unfold Spec.wuT
  exact transpose_ix2_apply Wu transposes_S64x64_S64x64_1_0 k q

/-- The bias as one row, at column `q`. -/
theorem row1_apply (b : FVec Ideal S64 .f32) (q : Fin 64) : Spec.row1 b (ix2 (0 : Fin 1) q) = b (ix1 q) := by
  unfold Spec.row1
  exact shapeCast_a_1a_apply b shapeCasts_S64_S1x64 0 q

/-- The kernel side at node `n`, column `q`. -/
theorem kernel_at (x agg : FVec Ideal S100000x64 .f32) (Wu : FVec Ideal S64x64 .f32) (bu : FVec Ideal S64 .f32)
    (n : Fin 100000) (q : Fin 64) :
    Spec.nodeFn (F := Ideal) x agg (Spec.wuT Wu) (Spec.row1 bu) (ix2 n q) = updAt x agg Wu bu n q := by
  unfold Spec.nodeFn updAt
  refine (pay_apply _ _ _ _ _ q).trans ?_
  simp only [rows5000_apply, wuT_apply, row1_apply]

end Kernel

/-! ## The reference side: one product over all nodes -/

section Reference

open Cert.ReferenceIdeal Cert.ReferenceIdeal.Facts₀ Cert.ReferenceIdeal.Facts

/-- The left operand of the whole product is read at the output's row … -/
theorem rlhs_0 (i : S100000x64.Idx) (c : dot_S100000x64_S64x64_S100000x64_1_0_0_1_n_n.contr.Idx) :
    (dot_S100000x64_S64x64_S100000x64_1_0_0_1_n_n.lhsIdx i c 0).val = (i 0).val := by
  unfold DotDims.lhsIdx
  rw [dif_neg (show ¬(0 : Fin S100000x64.rank) ∈ dot_S100000x64_S64x64_S100000x64_1_0_0_1_n_n.lhsBatch by
      show ¬(0 : Fin 2) ∈ ([] : List (Fin 2)); decide),
    dif_pos (show (0 : Fin S100000x64.rank) ∈ dot_S100000x64_S64x64_S100000x64_1_0_0_1_n_n.lhsNonContracting by
      show (0 : Fin 2) ∈ ([0] : List (Fin 2)); decide)]
  rfl
/-- … and at the contraction's coordinate. -/
theorem rlhs_1 (i : S100000x64.Idx) (c : dot_S100000x64_S64x64_S100000x64_1_0_0_1_n_n.contr.Idx) :
    (dot_S100000x64_S64x64_S100000x64_1_0_0_1_n_n.lhsIdx i c 1).val = (c ⟨0, by show 0 < 1; decide⟩).val :=
  dot_S100000x64_S64x64_S100000x64_1_0_0_1_n_n.lhsIdx_val_of_single rfl i c
/-- The right operand is read at the contraction's coordinate … -/
theorem rrhs_0 (i : S100000x64.Idx) (c : dot_S100000x64_S64x64_S100000x64_1_0_0_1_n_n.contr.Idx) :
    (dot_S100000x64_S64x64_S100000x64_1_0_0_1_n_n.rhsIdx i c 0).val = (c ⟨0, by show 0 < 1; decide⟩).val :=
  dot_S100000x64_S64x64_S100000x64_1_0_0_1_n_n.rhsIdx_val_of_single rfl i c
/-- … and at the output's column. -/
theorem rrhs_1 (i : S100000x64.Idx) (c : dot_S100000x64_S64x64_S100000x64_1_0_0_1_n_n.contr.Idx) :
    (dot_S100000x64_S64x64_S100000x64_1_0_0_1_n_n.rhsIdx i c 1).val = (i 1).val := by
  unfold DotDims.rhsIdx
  rw [dif_neg (show ¬(1 : Fin S64x64.rank) ∈ dot_S100000x64_S64x64_S100000x64_1_0_0_1_n_n.rhsBatch by
      show ¬(1 : Fin 2) ∈ ([] : List (Fin 2)); decide),
    dif_pos (show (1 : Fin S64x64.rank) ∈ dot_S100000x64_S64x64_S100000x64_1_0_0_1_n_n.rhsNonContracting by
      show (1 : Fin 2) ∈ ([1] : List (Fin 2)); decide)]
  rfl

/-- The whole product at node `n` and column `q`: the sum over the 64 inner coordinates. -/
theorem rdot_apply (a : FVec Ideal S100000x64 .f32) (w : FVec Ideal S64x64 .f32) (n : Fin 100000) (q : Fin 64) :
    Host.dotGeneral (F := Ideal) dot_S100000x64_S64x64_S100000x64_1_0_0_1_n_n none a w (ix2 n q)
      = ∑ k : Fin 64, a (ix2 n k) * w (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 n q) ((contrEquiv1 dot_S100000x64_S64x64_S100000x64_1_0_0_1_n_n 64 rfl rfl).symm k) = ix2 n k := funext fun b => Fin.ext (by
    match b with
    | ⟨0, _⟩ => exact rlhs_0 _ _
    | ⟨1, _⟩ => exact (rlhs_1 _ _).trans hk)
  have er : dot_S100000x64_S64x64_S100000x64_1_0_0_1_n_n.rhsIdx (ix2 n q) ((contrEquiv1 dot_S100000x64_S64x64_S100000x64_1_0_0_1_n_n 64 rfl rfl).symm k) = ix2 k q := funext fun b => Fin.ext (by
    match b with
    | ⟨0, _⟩ => exact (rrhs_0 _ _).trans hk
    | ⟨1, _⟩ => exact rrhs_1 _ _)
  rw [el, er]

/-- The transposed weights at `(k, q)` are the weights at `(q, k)`. -/
theorem rwuT_apply (Wu : FVec Ideal S64x64 .f32) (k q : Fin 64) :
    transpose S64x64 [1, 0] Wu transposes_S64x64_S64x64_1_0 (ix2 k q) = Wu (ix2 q k) :=
  transpose_ix2_apply Wu transposes_S64x64_S64x64_1_0 k q

/-- The bias spread over all nodes, at node `n` and column `q`. -/
theorem rbias_apply (b : FVec Ideal S64 .f32) (n : Fin 100000) (q : Fin 64) :
    broadcastInDim S100000x64 ![0, 1] bcast_S1x64_S100000x64_0_1 (broadcastInDim S1x64 ![1] bcast_S64_S1x64_1 b) (ix2 n q)
      = b (ix1 q) := by
  refine (broadcastInDim_apply _ bcast_S1x64_S100000x64_0_1 _ (ix2 n q) (ix2 (0 : Fin 1) q) (fun a => match a with
    | ⟨0, _⟩ => by show 0 = if (1 : Nat) = 1 then 0 else n.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- The zero everything is cut off at, at any index. -/
theorem rzero_apply (i : S100000x64.Idx) :
    broadcastInDim S100000x64 ![] bcast_S_S100000x64 (constant (F := Ideal) S_ .f32 0x00000000#32) i = 0 := by
  refine (broadcastInDim_apply _ bcast_S_S100000x64 _ i ix0 (fun a => a.elim0)).trans ?_
  exact Ideal.ofBits_zero_f32

/-- The reference side at node `n`, column `q`. -/
theorem reference_at (x agg : FVec Ideal S100000x64 .f32) (Wu : FVec Ideal S64x64 .f32) (bu : FVec Ideal S64 .f32)
    (n : Fin 100000) (q : Fin 64) :
    Spec.updOf (F := Ideal) x agg Wu bu (ix2 n q) = updAt x agg Wu bu n q := by
  unfold Spec.updOf updAt
  rw [maximumf_apply, addf_apply, rdot_apply, rbias_apply, rzero_apply]
  simp only [addf_apply]
  refine congrArg (fun s => max (s + bu (ix1 q)) 0) (Finset.sum_congr rfl fun k _ => ?_)
  exact congrArg (fun w => (x (ix2 n k) + agg (ix2 n k)) * w) (rwuT_apply Wu k q)

end Reference

theorem node_eq (x agg : FVec Ideal Cert.KernelIdeal.S100000x64 .f32) (Wu : FVec Ideal Cert.KernelIdeal.S64x64 .f32)
    (bu : FVec Ideal Cert.KernelIdeal.S64 .f32) :
    Cert.KernelIdeal.Spec.nodeFn (F := Ideal) x agg (Cert.KernelIdeal.Spec.wuT Wu) (Cert.KernelIdeal.Spec.row1 bu)
      = Cert.ReferenceIdeal.Spec.updOf x agg Wu bu := by
  funext i
  obtain ⟨n, q, rfl⟩ : ∃ (n : Fin 100000) (q : Fin 64), i = ix2 n q := ⟨i 0, i 1, eq_ix2 i⟩
  exact (kernel_at x agg Wu bu n q).trans (reference_at x agg Wu bu n q).symm

end Cert.NodeMath

end
-- ==== Proof.Bridge.lean ====
/-
  Under the two range facts the kernel side's function of the arguments is the reference side's: the guarded gathers
  are plain gathers, each round's messages and node update agree stage by stage, and the scatter-add and the final
  mean are the same operations on both sides.
-/
import proofs.«401947_j16612933501305_1_alg».proof.Proof.Take
import proofs.«401947_j16612933501305_1_alg».proof.Proof.EdgeMath
import proofs.«401947_j16612933501305_1_alg».proof.Proof.NodeMath

set_option maxRecDepth 16384

noncomputable section

namespace Cert.Bridge

open Idealize.ShloMosaic

variable [Cert.KernelIdeal.Facts] [Cert.ReferenceIdeal.Facts]

/-- One round agrees when every source index is a node. -/
theorem round_eq (x : FVec Ideal Cert.KernelIdeal.S100000x64 .f32) (src dst : IVec Cert.KernelIdeal.S1600000 32) (ea : FVec Ideal Cert.KernelIdeal.S1600000x4 .f32)
    (W : FVec Ideal Cert.KernelIdeal.S64x68 .f32) (b : FVec Ideal Cert.KernelIdeal.S64 .f32) (Wu : FVec Ideal Cert.KernelIdeal.S64x64 .f32) (bu : FVec Ideal Cert.KernelIdeal.S64 .f32)
    (hsrc : ∀ e, IntOp.cmpi .sge (src e) 0#32 = 1#1 ∧ IntOp.cmpi .slt (src e) 100000#32 = 1#1) :
    Cert.KernelIdeal.Spec.round (F := Ideal) x src dst ea W b Wu bu = Cert.ReferenceIdeal.Spec.round x src dst ea W b Wu bu := by
  unfold Cert.KernelIdeal.Spec.round Cert.ReferenceIdeal.Spec.round
  rw [Cert.Take.takeRows_eq x src hsrc, Cert.EdgeMath.edge_eq, Cert.NodeMath.node_eq]
  rfl

/-- The whole program agrees when every index is in range. -/
theorem result_eq (ids : IVec Cert.KernelIdeal.S100000 32) (ei : IVec Cert.KernelIdeal.S2x1600000 32) (ea : FVec Ideal Cert.KernelIdeal.S1600000x4 .f32)
    (emb : FVec Ideal Cert.KernelIdeal.S100x64 .f32)
    (W1 : FVec Ideal Cert.KernelIdeal.S64x68 .f32) (b1 : FVec Ideal Cert.KernelIdeal.S64 .f32) (Wu1 : FVec Ideal Cert.KernelIdeal.S64x64 .f32) (bu1 : FVec Ideal Cert.KernelIdeal.S64 .f32)
    (W2 : FVec Ideal Cert.KernelIdeal.S64x68 .f32) (b2 : FVec Ideal Cert.KernelIdeal.S64 .f32) (Wu2 : FVec Ideal Cert.KernelIdeal.S64x64 .f32) (bu2 : FVec Ideal Cert.KernelIdeal.S64 .f32)
    (hids : ∀ i, IntOp.cmpi .sge (ids i) 0#32 = 1#1 ∧ IntOp.cmpi .slt (ids i) 100#32 = 1#1)
    (hsrc : ∀ e, IntOp.cmpi .sge (Cert.KernelIdeal.Spec.srcOf ei e) 0#32 = 1#1 ∧ IntOp.cmpi .slt (Cert.KernelIdeal.Spec.srcOf ei e) 100000#32 = 1#1) :
    Cert.KernelIdeal.Spec.result (F := Ideal) ids ei ea emb W1 b1 Wu1 bu1 W2 b2 Wu2 bu2
      = Cert.ReferenceIdeal.Spec.result ids ei ea emb W1 b1 Wu1 bu1 W2 b2 Wu2 bu2 := by
  unfold Cert.KernelIdeal.Spec.result Cert.ReferenceIdeal.Spec.result
  rw [Cert.Take.takeEmb_eq emb ids hids, round_eq _ _ _ _ _ _ _ _ hsrc, round_eq _ _ _ _ _ _ _ _ hsrc]
  rfl

end Cert.Bridge

end
-- ==== Proof.lean ====
/-
  The certificate of a two-round graph encoder against its jnp reference, over the extended reals.

  Both programs embed the nodes (x₀ = emb[ids]) and run two rounds of message passing — per edge the message
  relu(W · [x[src] ; ea] + b), per node the sum of incoming messages, then x ← relu(Wu · (x + agg) + bu) — and return
  the mean of the final features over the nodes. The kernel side computes the messages and the node update in two
  blocked kernels per round (splitting W by columns instead of concatenating), and gathers with a range test that
  fills out-of-range rows; the reference gathers directly. Under the precondition — finite inputs, every node-type
  index a row of the table, every edge's source a node — the range tests are all true, a sum over 68 columns is the
  sum over the first 64 plus the sum over the last 4, and the two results are one function of the arguments
  (Proof/Bridge.lean). The frames of the two kernel programs are their generated frame certificates; the reference's
  is its generated run with the result dropped. No rewrite separates the kernel from its idealization.
-/
import proofs.«401947_j16612933501305_1_alg».proof.Defs
import proofs.«401947_j16612933501305_1_alg».proof.Proof.Gen.Kernel
import proofs.«401947_j16612933501305_1_alg».proof.Proof.Gen.Kernel.Frame
import proofs.«401947_j16612933501305_1_alg».proof.Proof.Gen.KernelIdeal
import proofs.«401947_j16612933501305_1_alg».proof.Proof.Gen.KernelIdeal.Frame
import proofs.«401947_j16612933501305_1_alg».proof.Proof.Gen.ReferenceIdeal
import proofs.«401947_j16612933501305_1_alg».proof.Proof.Gen.ReferenceIdeal.Run
import proofs.«401947_j16612933501305_1_alg».proof.Proof.Gen.Pre_finite_inputs
import proofs.«401947_j16612933501305_1_alg».proof.Proof.RunValue
import proofs.«401947_j16612933501305_1_alg».proof.Proof.KernelChain
import proofs.«401947_j16612933501305_1_alg».proof.Proof.RefSide
import proofs.«401947_j16612933501305_1_alg».proof.Proof.PreDecode
import proofs.«401947_j16612933501305_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's function of the (agreeing) arguments in their result buffers. -/
theorem algebraic : Cert.algebraic_KernelIdeal_ReferenceIdeal := by
  intro m ρ m' ρ' hpre hagree
  refine ⟨fun c => Cert.ReferenceIdeal.Value.res_main_v61 m' c, ?_, Cert.ReferenceIdeal.Value.run (F := Ideal) m' ρ'⟩
  refine (θ_run Cert.KernelIdeal.defs _ _).mono (fun r h c => ⟨(h c).1.trans ?_, (h c).2⟩)
    (Cert.KernelIdeal.RunValue.run_W13 (F := Ideal) m ρ)
  rw [Cert.KernelIdeal.Chain.W13_result]
  show _ = Cert.ReferenceIdeal.Value.res_main_v61 m' c
  rw [Cert.ReferenceIdeal.RefSide.res_eq]
  obtain ⟨h0, h1, h2, h3, h4, h5, h6, h7, h8, h9, h10, h11⟩ := hagree c
  rw [h0, h1, h2, h3, h4, h5, h6, h7, h8, h9, h10, h11]
  exact Cert.Bridge.result_eq _ _ _ _ _ _ _ _ _ _ _ _ (Cert.PreDecode.ids_range m hpre c) (Cert.PreDecode.src_range m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
